-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x512 : Shape := ⟨3, ![64, 2048, 512]⟩
abbrev S64x2048 : Shape := ⟨2, ![64, 2048]⟩
abbrev S64x1 : Shape := ⟨2, ![64, 1]⟩
abbrev S5000x512 : Shape := ⟨2, ![5000, 512]⟩
abbrev S_ : Shape := ⟨0, ![]⟩

class Facts : Prop where
  bcast_S_S64x2048x512 : S_.BroadcastsInDim S64x2048x512 (![] : Fin 0 → Fin S64x2048x512.rank)
  reducesTo_S64x2048x512_S_d0_1_2 : S64x2048x512.ReducesTo [0, 1, 2] S_
  h_S_ : 0 < S_.numel
  bcast_S_S5000x512 : S_.BroadcastsInDim S5000x512 (![] : Fin 0 → Fin S5000x512.rank)
  reducesTo_S5000x512_S_d0_1 : S5000x512.ReducesTo [0, 1] S_
  bcast_S_S64x2048 : S_.BroadcastsInDim S64x2048 (![] : Fin 0 → Fin S64x2048.rank)
  reducesTo_S64x2048_S_d0_1 : S64x2048.ReducesTo [0, 1] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg2 : IVec S64x1 32) (main_v12 : IVec S_ 1) (main_v15 : IVec S_ 1) : IVec S_ 1 :=
  let main_v16 : IVec S_ 1 := andi main_v12 main_v15
  let main_c_6 : IVec S_ 32 := constantI S_ 32 0#32
  let main_v17 : IVec S64x1 32 := broadcastInDim S64x1 ![] bcast_S_S64x1 main_c_6
  let main_v18 : IVec S64x1 1 := cmpi .sge main_arg2 main_v17
  let main_c_7 : IVec S_ 1 := constantI S_ 1 1#1
  let main_v19 : IVec S_ 1 := (fun x v => Host.reduce IntOp.andi x v reducesTo_S64x1_S_d0_1 h_S_) main_v18 main_c_7
  let main_v20 : IVec S_ 1 := andi main_v16 main_v19
  let main_c_8 : IVec S_ 32 := constantI S_ 32 2048#32
  let main_v21 : IVec S64x1 32 := broadcastInDim S64x1 ![] bcast_S_S64x1 main_c_8
  let main_v22 : IVec S64x1 1 := cmpi .slt main_arg2 main_v21
  let main_c_9 : IVec S_ 1 := constantI S_ 1 1#1
  let main_v23 : IVec S_ 1 := (fun x v => Host.reduce IntOp.andi x v reducesTo_S64x1_S_d0_1 h_S_) main_v22 main_c_9
  let main_v24 : IVec S_ 1 := andi main_v20 main_v23
  main_v24

def fn {F : FTy → Type} [FloatOps F] (main_arg0 : FVec F S64x2048x512 .f32) (main_arg1 : IVec S64x2048 32) (main_arg2 : IVec S64x1 32) (main_arg3 : FVec F S5000x512 .f32) : IVec S_ 1 :=
  let main_v0 : FVec F S64x2048x512 .f32 := Host.absf main_arg0
  let main_cst : FVec F S_ .f32 := constant S_ .f32 0x7F800000#32
  let main_v1 : FVec F S64x2048x512 .f32 := broadcastInDim S64x2048x512 ![] bcast_S_S64x2048x512 main_cst
  let main_v2 : IVec S64x2048x512 1 := cmpf .olt main_v0 main_v1
  let main_c : IVec S_ 1 := constantI S_ 1 1#1
  let main_v3 : IVec S_ 1 := (fun x v => Host.reduce IntOp.andi x v reducesTo_S64x2048x512_S_d0_1_2 h_S_) main_v2 main_c
  let main_v4 : FVec F S5000x512 .f32 := Host.absf main_arg3
  let main_cst_0 : FVec F S_ .f32 := constant S_ .f32 0x7F800000#32
  let main_v5 : FVec F S5000x512 .f32 := broadcastInDim S5000x512 ![] bcast_S_S5000x512 main_cst_0
  let main_v6 : IVec S5000x512 1 := cmpf .olt main_v4 main_v5
  let main_c_1 : IVec S_ 1 := constantI S_ 1 1#1
  let main_v7 : IVec S_ 1 := (fun x v => Host.reduce IntOp.andi x v reducesTo_S5000x512_S_d0_1 h_S_) main_v6 main_c_1
  let main_v8 : IVec S_ 1 := andi main_v3 main_v7
  let main_c_2 : IVec S_ 32 := constantI S_ 32 0#32
  let main_v9 : IVec S64x2048 32 := broadcastInDim S64x2048 ![] bcast_S_S64x2048 main_c_2
  let main_v10 : IVec S64x2048 1 := cmpi .sge main_arg1 main_v9
  let main_c_3 : IVec S_ 1 := constantI S_ 1 1#1
  let main_v11 : IVec S_ 1 := (fun x v => Host.reduce IntOp.andi x v reducesTo_S64x2048_S_d0_1 h_S_) main_v10 main_c_3
  let main_v12 : IVec S_ 1 := andi main_v8 main_v11
  let main_c_4 : IVec S_ 32 := constantI S_ 32 5000#32
  let main_v13 : IVec S64x2048 32 := broadcastInDim S64x2048 ![] bcast_S_S64x2048 main_c_4
  let main_v14 : IVec S64x2048 1 := cmpi .slt main_arg1 main_v13
  let main_c_5 : IVec S_ 1 := constantI S_ 1 1#1
  let main_v15 : IVec S_ 1 := (fun x v => Host.reduce IntOp.andi x v reducesTo_S64x2048_S_d0_1 h_S_) main_v14 main_c_5
  fn_part1 (F := F) main_arg2 main_v12 main_v15
-- ==== Kernel.lean ====
abbrev S64x2048x512 : Shape := ⟨3, ![64, 2048, 512]⟩
abbrev S64x2048 : Shape := ⟨2, ![64, 2048]⟩
abbrev S64x1 : Shape := ⟨2, ![64, 1]⟩
abbrev S5000x512 : Shape := ⟨2, ![5000, 512]⟩
abbrev S_ : Shape := ⟨0, ![]⟩
abbrev S131072x1 : Shape := ⟨2, ![131072, 1]⟩
abbrev S64 : Shape := ⟨1, ![64]⟩
abbrev S512x1 : Shape := ⟨2, ![512, 1]⟩
abbrev S1x512x512 : Shape := ⟨3, ![1, 512, 512]⟩
abbrev S512x5000 : Shape := ⟨2, ![512, 5000]⟩
abbrev S512x512 : Shape := ⟨2, ![512, 512]⟩
abbrev S1 : Shape := ⟨1, ![1]⟩

abbrev nBuf : Space → Nat
  | .hbm => 15
  | .vmem => 8
  | .smem => 1
  | _ => 0

abbrev bufTy : (tb : Table) → Fin (tcTables nBuf tb) → BufTy
  | .hbm, ⟨0, _⟩ => ⟨S64x2048x512, .f32⟩
  | .hbm, ⟨1, _⟩ => ⟨S64x2048, .i32⟩
  | .hbm, ⟨2, _⟩ => ⟨S64x1, .i32⟩
  | .hbm, ⟨3, _⟩ => ⟨S5000x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S64x2048, .i32⟩
  | .hbm, ⟨8, _⟩ => ⟨S64x2048, .i32⟩
  | .hbm, ⟨9, _⟩ => ⟨S_, .i32⟩
  | .hbm, ⟨10, _⟩ => ⟨S64x2048, .i32⟩
  | .hbm, ⟨11, _⟩ => ⟨S64x2048, .i32⟩
  | .hbm, ⟨12, _⟩ => ⟨S131072x1, .i32⟩
  | .hbm, ⟨13, _⟩ => ⟨S5000x512, .bf16⟩
  | .hbm, ⟨14, _⟩ => ⟨S64x2048x512, .f32⟩
  | .local _ .vmem, ⟨0, _⟩ => ⟨S512x1, .i32⟩
  | .local _ .vmem, ⟨1, _⟩ => ⟨S512x1, .i32⟩
  | .local _ .vmem, ⟨2, _⟩ => ⟨S5000x512, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S512x5000, .i32⟩
  | .local _ .smem, ⟨0, _⟩ => ⟨S64, .i32⟩
  | _, _ => ⟨S64x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v3 : Ref sig .tc := ⟨.hbm, 13, rfl⟩
abbrev main_v4 : Ref sig .tc := ⟨.hbm, 14, rfl⟩
abbrev main_v2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 4], ![false, false]⟩

abbrev pre0 : Pipeline.Prefetch sig := ⟨1, ![main_v2.idx], fun | 0 => main_v2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v24 : Index := Scalar.indexCast arg0
  ![v24.toNat]
def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S5000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S64x2048 : S_.BroadcastsInDim S64x2048 (![] : Fin 0 → Fin S64x2048.rank)
  shapeCasts_S64x2048_S131072x1 : S64x2048.ShapeCasts S131072x1
  shapeCasts_S64x1_S64 : S64x1.ShapeCasts S64
  bitsLt_bf16_f32 : FTy.bits .bf16 < FTy.bits .f32
  iota_S512x5000_d1_w32 : S512x5000.Iotas .tc 32 [1]
  inb_S512x5000_S512x5000_0_0 : ∀ a, (![0, 0] : Fin 2 → Nat) a + S512x5000.size a ≤ S512x5000.size a
  h_S512x5000 : 0 < S512x5000.numel
  shapeCasts_S512x5000_S512x5000 : S512x5000.ShapeCasts S512x5000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x5000 : S512x1.Broadcasts S512x5000
  natLt_1_32 : 1 < 32
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  broadcasts_S512x1_S512x512 : S512x1.Broadcasts S512x512
  iota_S512x1_d0_w32 : S512x1.Iotas .tc 32 [0]
  numel1_S1 : S1.numel = 1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S512x5000_S5000x512_S512x512_1_0_0_1_n_n_wf : DotDims.WF S512x5000 S5000x512 S512x512 [1] [0] [0] [1] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S131072x1.size a
  hwx0_0 : ∀ i : grid0.Coords, EltTy.bits .i32 = 32 ∨ (Rect.block (s := S131072x1) S512x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5000x512.size a ≤ S5000x512.size a
  hwx0_1 : ∀ i : grid0.Coords, EltTy.bits .bf16 = 32 ∨ (Rect.block (s := S5000x512) S5000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x2048x512.size a
  hwx0_2 : ∀ i : grid0.Coords, EltTy.bits .f32 = 32 ∨ (Rect.block (s := S64x2048x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x2048x512.size a
  hwx0_3 : ∀ i : grid0.Coords, EltTy.bits .f32 = 32 ∨ (Rect.block (s := S64x2048x512) S1x512x512.size (cc0_transform_3 i) (hinb0_3 i)).WholeWords (EltTy.packing .f32)

variable [Facts₀]

def dot_S512x5000_S5000x512_S512x512_1_0_0_1_n_n : DotDims S512x5000 S5000x512 S512x512 where
  lhsContracting := [1]
  rhsContracting := [0]
  lhsNonContracting := [0]
  rhsNonContracting := [1]
  lhsBatch := []
  rhsBatch := []
  wf := dot_S512x5000_S5000x512_S512x512_1_0_0_1_n_n_wf

abbrev spec0_0 : Pipeline.WinSpec sig grid0.rank :=
  Pipeline.WinSpec.ofSpec (Memref.whole main_v1) S512x1.size reads0_0 false false 2 stage0_0 sem0_0 nbuf0_0 hstage0_0

abbrev spec0_1 : Pipeline.WinSpec sig grid0.rank :=
  Pipeline.WinSpec.ofSpec (Memref.whole main_v3) S5000x512.size reads0_1 false true 1 stage0_1 sem0_1 nbuf0_1 hstage0_1

abbrev spec0_2 : Pipeline.WinSpec sig grid0.rank :=
  Pipeline.WinSpec.ofSpec (Memref.whole main_arg0) S1x512x512.size reads0_2 false false 2 stage0_2 sem0_2 nbuf0_2 hstage0_2

abbrev spec0_3 : Pipeline.WinSpec sig grid0.rank :=
  Pipeline.WinSpec.ofSpec (Memref.whole main_v4) S1x512x512.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x2048x512 : Shape := ⟨3, ![64, 2048, 512]⟩
abbrev S64x2048 : Shape := ⟨2, ![64, 2048]⟩
abbrev S64x1 : Shape := ⟨2, ![64, 1]⟩
abbrev S5000x512 : Shape := ⟨2, ![5000, 512]⟩
abbrev S_ : Shape := ⟨0, ![]⟩
abbrev S64x2048x1 : Shape := ⟨3, ![64, 2048, 1]⟩
abbrev S64 : Shape := ⟨1, ![64]⟩
abbrev S64x1x1 : Shape := ⟨3, ![64, 1, 1]⟩
abbrev S64x1x2 : Shape := ⟨3, ![64, 1, 2]⟩
abbrev S64x1x512 : Shape := ⟨3, ![64, 1, 512]⟩

abbrev nBuf : Space → Nat
  | .hbm => 43
  | .vmem => 0
  | .smem => 0
  | _ => 0

abbrev bufTy : (tb : Table) → Fin (tcTables nBuf tb) → BufTy
  | .hbm, ⟨0, _⟩ => ⟨S64x2048x512, .f32⟩
  | .hbm, ⟨1, _⟩ => ⟨S64x2048, .i32⟩
  | .hbm, ⟨2, _⟩ => ⟨S64x1, .i32⟩
  | .hbm, ⟨3, _⟩ => ⟨S5000x512, .f32⟩
  | .hbm, ⟨4, _⟩ => ⟨S_, .i32⟩
  | .hbm, ⟨5, _⟩ => ⟨S64x2048, .i32⟩
  | .hbm, ⟨6, _⟩ => ⟨S64x2048, .i1⟩
  | .hbm, ⟨7, _⟩ => ⟨S_, .i32⟩
  | .hbm, ⟨8, _⟩ => ⟨S64x2048, .i32⟩
  | .hbm, ⟨9, _⟩ => ⟨S64x2048, .i32⟩
  | .hbm, ⟨10, _⟩ => ⟨S64x2048, .i32⟩
  | .hbm, ⟨11, _⟩ => ⟨S64x2048x1, .i32⟩
  | .hbm, ⟨12, _⟩ => ⟨S64x2048x512, .f32⟩
  | .hbm, ⟨13, _⟩ => ⟨S_, .i32⟩
  | .hbm, ⟨14, _⟩ => ⟨S64x2048, .i32⟩
  | .hbm, ⟨15, _⟩ => ⟨S64x2048, .i1⟩
  | .hbm, ⟨16, _⟩ => ⟨S64x2048, .f32⟩
  | .hbm, ⟨17, _⟩ => ⟨S64x2048x1, .f32⟩
  | .hbm, ⟨18, _⟩ => ⟨S64x2048x512, .f32⟩
  | .hbm, ⟨19, _⟩ => ⟨S64x2048x512, .f32⟩
  | .hbm, ⟨20, _⟩ => ⟨S64, .i32⟩
  | .hbm, ⟨21, _⟩ => ⟨S64x1, .i32⟩
  | .hbm, ⟨22, _⟩ => ⟨S_, .i32⟩
  | .hbm, ⟨23, _⟩ => ⟨S64x1, .i32⟩
  | .hbm, ⟨24, _⟩ => ⟨S64x1, .i1⟩
  | .hbm, ⟨25, _⟩ => ⟨S_, .i32⟩
  | .hbm, ⟨26, _⟩ => ⟨S64x1, .i32⟩
  | .hbm, ⟨27, _⟩ => ⟨S64x1, .i32⟩
  | .hbm, ⟨28, _⟩ => ⟨S64x1, .i32⟩
  | .hbm, ⟨29, _⟩ => ⟨S_, .i32⟩
  | .hbm, ⟨30, _⟩ => ⟨S64x1, .i32⟩
  | .hbm, ⟨31, _⟩ => ⟨S64x1, .i1⟩
  | .hbm, ⟨32, _⟩ => ⟨S_, .i32⟩
  | .hbm, ⟨33, _⟩ => ⟨S64x1, .i32⟩
  | .hbm, ⟨34, _⟩ => ⟨S64x1, .i32⟩
  | .hbm, ⟨35, _⟩ => ⟨S64x1, .i32⟩
  | .hbm, ⟨36, _⟩ => ⟨S64x1x1, .i32⟩
  | .hbm, ⟨37, _⟩ => ⟨S64x1x1, .i32⟩
  | .hbm, ⟨38, _⟩ => ⟨S64x1x2, .i32⟩
  | .hbm, ⟨39, _⟩ => ⟨S_, .f32⟩
  | .hbm, ⟨40, _⟩ => ⟨S64x1x512, .f32⟩
  | .hbm, ⟨41, _⟩ => ⟨S64x2048x512, .f32⟩
  | .hbm, ⟨42, _⟩ => ⟨S64x2048x512, .f32⟩
  | _, _ => ⟨S64x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_c_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S64x2048_S64x2048x1_0_1 : S64x2048.BroadcastsInDim S64x2048x1 (![0, 1] : Fin 2 → Fin S64x2048x1.rank)
  bcast_S64x2048x1_S64x2048x512_0_1_2 : S64x2048x1.BroadcastsInDim S64x2048x512 (![0, 1, 2] : Fin 3 → Fin S64x2048x512.rank)
  bcast_S64_S64x1_0 : S64.BroadcastsInDim S64x1 (![0] : Fin 1 → Fin S64x1.rank)
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  concatenates_S64x1x1_S64x1x1_S64x1x2_d2 : Shape.Concatenates [S64x1x1, S64x1x1] S64x1x2 2
  bcast_S_S64x1x512 : S_.BroadcastsInDim S64x1x512 (![] : Fin 0 → Fin S64x1x512.rank)
  gather_S5000x512_S64x2048x1_S64x2048x512_2_0_n_n_0_2_1512_wf : GatherDims.WF S5000x512 S64x2048x1 S64x2048x512 [2] [0] [] [0] [] 2 ![1, 512]
  scatter_S64x2048x512_S64x1x2_S64x1x512_2_01_01_2_wf : ScatterDims.WF S64x2048x512 S64x1x2 S64x1x512 [2] [0, 1] [0, 1] 2

variable [Facts₀]

def gather_S5000x512_S64x2048x1_S64x2048x512_2_0_n_n_0_2_1512 : GatherDims S5000x512 S64x2048x1 S64x2048x512 where
  offsetDims := [2]
  collapsedSliceDims := [0]
  operandBatchingDims := []
  startIndicesBatchingDims := []
  startIndexMap := [0]
  indexVectorDim := 2
  sliceSizes := ![1, 512]
  wf := gather_S5000x512_S64x2048x1_S64x2048x512_2_0_n_n_0_2_1512_wf
def scatter_S64x2048x512_S64x1x2_S64x1x512_2_01_01_2 : ScatterDims S64x2048x512 S64x1x2 S64x1x512 where
  updateWindowDims := [2]
  insertedWindowDims := [0, 1]
  scatterDimsToOperandDims := [0, 1]
  indexVectorDim := 2
  wf := scatter_S64x2048x512_S64x1x2_S64x1x512_2_01_01_2_wf

class Facts : Prop extends Facts₀ where

variable [Facts]
-- ==== Proof.KernelPieces.lean ====
/-
  What one run of the kernel body leaves behind, read back as values.

  The body keeps a [512, 5000] table of column indices (an iota along the category axis) in a scratch buffer. On the
  first sequence tile of a batch it rebuilds that table and then uses it; on the other tiles it uses the table the
  previous grid point left. Either way it stores ONE block of the output: a pure function (the body's arithmetic)
  of the category column it loaded, the column-index table, the embedding table, the batch's masked-position word
  read from the prefetched table, and the input block.
-/
import proofs.«401667_j9019431321845_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Pieces

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The masked-position word the body reads at a grid point: the prefetched table's word at the batch coordinate. -/
abbrev maskWord (c : Dev nD) (i : grid0.Coords) (xt0 : TbBuf0 (F := F) c tbM0_0) : Elt F .i32 :=
  View.readAt (Elt F) tbM0_0.view (Rect.unit (s := S64) (k0_off1 i) S1.size (k0_off1_inb i)).toLoadRect xt0
    (Shape.Idx.first Nat.one_pos)

/-- On a batch's first tile the body leaves the column-index table in the scratch: its one store there covers it. -/
theorem scratch_first (c : Dev nD) (i : grid0.Coords) (arg3 : Memref sig .tc .vmem S512x1 .i32) (harg3 : arg3.IsWhole) (arg4 : Memref sig .tc .vmem S5000x512 .bf16) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x5000 .i32) (harg7 : arg7.IsWhole) (hc0 : cond0_0 i)
    (x0 : Vec F S512x1 .i32) (x1 : Vec F S5000x512 .bf16) (x2 : Vec F S1x512x512 .f32) (xt0 : TbBuf0 (F := F) c tbM0_0) :
    sout0_A_0 c i arg3 harg3 arg4 harg4 arg5 harg5 arg6 harg6 arg7 harg7 hc0 x0 x1 x2 xt0 = k0_pay1 := by
  unfold sout0_A_0
  rw [View.read_writes_eq_canon _ _ _ (scover0_A_0 c i arg3 harg3 arg4 harg4 arg5 harg5 arg6 harg6 arg7 harg7 hc0 x0 x1 x2 xt0)]
  unfold kernelRun0_A
  dsimp only
  sl_unfold_words
  rw [View.canon_unit_zero zeros2]

/-- On a batch's first tile the output block is the body's arithmetic over the freshly built column-index table
    (the load of the scratch reads back what the store just before it wrote). -/
theorem out_first (c : Dev nD) (i : grid0.Coords) (arg3 : Memref sig .tc .vmem S512x1 .i32) (harg3 : arg3.IsWhole) (arg4 : Memref sig .tc .vmem S5000x512 .bf16) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x5000 .i32) (harg7 : arg7.IsWhole) (hc0 : cond0_0 i)
    (x0 : Vec F S512x1 .i32) (x1 : Vec F S5000x512 .bf16) (x2 : Vec F S1x512x512 .f32) (xt0 : TbBuf0 (F := F) c tbM0_0) :
    out0_A_3 c i arg3 harg3 arg4 harg4 arg5 harg5 arg6 harg6 arg7 harg7 hc0 x0 x1 x2 xt0 = k0_pay2 i x0 k0_pay1 x1 (maskWord c i xt0) x2 := by
  unfold out0_A_3
  rw [View.read_writes_eq_canon _ _ _ (cover0_A_3 c i arg3 harg3 arg4 harg4 arg5 harg5 arg6 harg6 arg7 harg7 hc0 x0 x1 x2 xt0)]
  unfold kernelRun0_A
  dsimp only
  sl_unfold_words
  rw [View.canon_unit_zero zeros3]
  simp only [View.readAt_eq_ld, harg3.read_unread, harg4.read_unread, harg5.read_unread,
    View.ld_unit_zero (S := S512x1) zeros2, View.ld_unit_zero (S := S5000x512) zeros2,
    View.ld_unit_zero (S := S1x512x512) zeros3, View.readCov_unit_zero (S := S512x5000) _ zeros2]
  rfl

/-- On the other tiles the output block is the body's arithmetic over the table `xs0` the scratch already held. -/
theorem out_later (c : Dev nD) (i : grid0.Coords) (arg3 : Memref sig .tc .vmem S512x1 .i32) (harg3 : arg3.IsWhole) (arg4 : Memref sig .tc .vmem S5000x512 .bf16) (harg4 : arg4.IsWhole) (arg5 : Memref sig .tc .vmem S1x512x512 .f32) (harg5 : arg5.IsWhole) (arg6 : Memref sig .tc .vmem S1x512x512 .f32) (harg6 : arg6.IsWhole) (arg7 : Memref sig .tc .vmem S512x5000 .i32) (harg7 : arg7.IsWhole) (hc0 : ¬cond0_0 i)
    (x0 : Vec F S512x1 .i32) (x1 : Vec F S5000x512 .bf16) (x2 : Vec F S1x512x512 .f32) (xt0 : TbBuf0 (F := F) c tbM0_0) (xs0 : Vec F S512x5000 .i32) :
    out0_B_3 c i arg3 harg3 arg4 harg4 arg5 harg5 arg6 harg6 arg7 harg7 hc0 x0 x1 x2 xt0 xs0 = k0_pay2 i x0 xs0 x1 (maskWord c i xt0) x2 := by
  unfold out0_B_3
  rw [View.read_writes_eq_canon _ _ _ (cover0_B_3 c i arg3 harg3 arg4 harg4 arg5 harg5 arg6 harg6 arg7 harg7 hc0 x0 x1 x2 xt0 xs0)]
  unfold kernelRun0_B
  dsimp only
  sl_unfold_words
  rw [View.canon_unit_zero zeros3]
  simp only [View.readAt_eq_ld, harg3.read_unread, harg4.read_unread, harg5.read_unread, harg7.read_unread,
    View.ld_unit_zero (S := S512x1) zeros2, View.ld_unit_zero (S := S5000x512) zeros2,
    View.ld_unit_zero (S := S1x512x512) zeros3, View.ld_unit_zero (S := S512x5000) zeros2]
  rfl

end Cert.KernelIdeal.Pieces

end
-- ==== Proof.KernelCarried.lean ====
/-
  The column-index table is carried across the whole grid.

  The grid has 64 batches of 4 sequence tiles, visited in order. The body rebuilds the column-index table on each
  batch's first tile and leaves the scratch alone on the other three, so by induction on the grid point the scratch
  holds that table after EVERY point. Hence at every point, first tile or not, the output block is the body's
  arithmetic over the same table.
-/
import proofs.«401667_j9019431321845_3_alg».proof.Proof.KernelPieces

set_option maxRecDepth 16384

noncomputable section

open Idealize.ShloMosaic Idealize.ShloMosaic.TcCoe Idealize.SL.Sem

namespace Cert.KernelIdeal.Carried

open Cert.KernelIdeal Cert.KernelIdeal.Gen

variable {F : FTy → Type} [FloatOps F]
variable (m : (ℓ : Loc nD τ sig) → Buf (Elt F) ℓ)

/-- After grid point `n` the scratch holds the column-index table: rebuilt there if `n` is a batch's first tile,
    otherwise what point `n - 1` left, which is the table by induction. -/
theorem scratch_eq (hO : Ok m) (c : Dev nD) : ∀ (n : ℕ) (h : n < (cfgM m hO).N), (outsAt0 m hO c n h).2 = k0_pay1
  | 0, h => by
    rw [outsAt0_A m hO c ⟨0, h⟩ rfl]
    dsimp only
    exact Pieces.scratch_first c (grid0.coords ⟨0, h⟩) (ms0_0 m hO ⟨0, h⟩) (hs0_0 m hO ⟨0, h⟩) (ms0_1 m hO ⟨0, h⟩) (hs0_1 m hO ⟨0, h⟩) (ms0_2 m hO ⟨0, h⟩) (hs0_2 m hO ⟨0, h⟩) (ms0_3 m hO ⟨0, h⟩) (hs0_3 m hO ⟨0, h⟩) scM0_0 (Memref.isWhole_whole _) _ (iblk m hO c 0 ⟨0, h⟩) (iblk m hO c 1 ⟨0, h⟩) (iblk m hO c 2 ⟨0, h⟩) (tbl m 0)
  | n + 1, h => by
    by_cases h0 : (n + 1) % 4 = 0
    · rw [outsAt0_A m hO c ⟨n + 1, h⟩ h0]
      dsimp only
      exact Pieces.scratch_first c (grid0.coords ⟨n + 1, h⟩) (ms0_0 m hO ⟨n + 1, h⟩) (hs0_0 m hO ⟨n + 1, h⟩) (ms0_1 m hO ⟨n + 1, h⟩) (hs0_1 m hO ⟨n + 1, h⟩) (ms0_2 m hO ⟨n + 1, h⟩) (hs0_2 m hO ⟨n + 1, h⟩) (ms0_3 m hO ⟨n + 1, h⟩) (hs0_3 m hO ⟨n + 1, h⟩) scM0_0 (Memref.isWhole_whole _) _ (iblk m hO c 0 ⟨n + 1, h⟩) (iblk m hO c 1 ⟨n + 1, h⟩) (iblk m hO c 2 ⟨n + 1, h⟩) (tbl m 0)
    · rw [outsAt0_B m hO c ⟨n + 1, h⟩ h0]
      dsimp only
      unfold sout0_B_0
      exact scratch_eq hO c n (Nat.lt_of_succ_lt h)

/-- At every grid point the output block is the body's arithmetic over the point's category column, the
    column-index table, the embedding table, the batch's masked-position word and the point's input block. -/
theorem out_eq (hO : Ok m) (c : Dev nD) (t : Fin (cfgM m hO).N) :
    (outsAt0 m hO c t.val t.isLt).1
      = k0_pay2 (grid0.coords t) (iblk m hO c 0 t) k0_pay1 (iblk m hO c 1 t) (Pieces.maskWord c (grid0.coords t) (tbl m 0))
          (iblk m hO c 2 t) := by
  by_cases h0 : t.val % 4 = 0
  · rw [outsAt0_A m hO c t h0]
    dsimp only
    exact Pieces.out_first c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) _ (iblk m hO c 0 t) (iblk m hO c 1 t) (iblk m hO c 2 t) (tbl m 0)
  · rw [outsAt0_B m hO c t h0]
    dsimp only
    refine (Pieces.out_later c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) _ (iblk m hO c 0 t) (iblk m hO c 1 t) (iblk m hO c 2 t) (tbl m 0) _).trans ?_
    rw [scratch_eq m hO c (t.val - 1) (Nat.lt_of_le_of_lt (Nat.sub_le _ _) t.isLt)]

end Cert.KernelIdeal.Carried

end
-- ==== Proof.KernelEntry.lean ====
/-
  What the pallas_call finds when it starts, and what each window's block holds at a grid point.

  Before the call, @main clips the category words into the table's rows `[0, 4999]` and lays the [64, 2048] array
  out as one [131072, 1] column (row `2048 b + p` is category `(b, p)`), lays the [64, 1] masked positions out as a
  [64] vector (the prefetched table), and converts the embedding table to bf16. Grid point `t` is batch `t / 4`,
  sequence tile `t % 4`: its category block is rows `512 t … 512 t + 511` of the column, that is positions
  `512 (t % 4) + r` of batch `t / 4`; its table block is the whole table; its input and output blocks are rows
  `512 (t % 4) + r` of batch `t / 4`; and the word it reads from the prefetched table is the batch's masked position.
-/
import proofs.«401667_j9019431321845_3_alg».proof.Proof.KernelPieces
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.ShloMosaic.Tactic Idealize.SL.Sem
open Idealize.ShloMosaic.StableHlo Idealize.ShloMosaic.ValueIdx

namespace Cert.KernelIdeal.Entry

open Cert.KernelIdeal Cert.KernelIdeal.Gen

variable {F : FTy → Type} [FloatOps F]
variable (m : (ℓ : Loc nD τ sig) → Buf (Elt F) ℓ)

/-! ## The grid, decided once over its 256 points -/

/-- The printed index maps and coordinates at point `t`: the category window's block row is `t`; the table's block
    is block (0, 0); the input's and the output's block is (batch `t / 4`, tile `t % 4`, 0); the grid coordinates are
    (`t / 4`, `t % 4`); the word read from the prefetched table is word `t / 4`. -/
theorem grid_facts : ∀ t : Fin grid0.N,
    cc0_transform_0 (grid0.coords t) (0 : Fin 2) = t.val ∧ cc0_transform_0 (grid0.coords t) (1 : Fin 2) = 0
    ∧ cc0_transform_1 (grid0.coords t) (0 : Fin 2) = 0 ∧ cc0_transform_1 (grid0.coords t) (1 : Fin 2) = 0
    ∧ cc0_transform_2 (grid0.coords t) (0 : Fin 3) = t.val / 4 ∧ cc0_transform_2 (grid0.coords t) (1 : Fin 3) = t.val % 4
    ∧ cc0_transform_2 (grid0.coords t) (2 : Fin 3) = 0
    ∧ cc0_transform_3 (grid0.coords t) (0 : Fin 3) = t.val / 4 ∧ cc0_transform_3 (grid0.coords t) (1 : Fin 3) = t.val % 4
    ∧ cc0_transform_3 (grid0.coords t) (2 : Fin 3) = 0
    ∧ ((grid0.coords t) 0).val = t.val / 4 ∧ ((grid0.coords t) 1).val = t.val % 4
    ∧ k0_off1 (grid0.coords t) (0 : Fin 1) = t.val / 4 :=
  (by decide +kernel : ∀ t : Fin grid0.N, _)

/-- The batch of grid point `t`. -/
abbrev batchOf (t : Fin grid0.N) : Fin 64 := ⟨t.val / 4, by have := t.isLt; have : grid0.N = 256 := N_0; omega⟩
/-- The sequence position of row `r` of grid point `t`'s tile. -/
abbrev posOf (t : Fin grid0.N) (r : Fin 512) : Fin 2048 := ⟨t.val % 4 * 512 + r.val, by have := r.isLt; omega⟩

/-! ## The arrays the call finds -/

/-- The category words clipped into the table's rows, as @main clips them: `min 4999 (max 0 c)`, signed. -/
def clipped (x : IVec S64x2048 32) : IVec S64x2048 32 :=
  minsi (broadcastInDim S64x2048 ![] Gen.bcast_S_S64x2048 (constantI S_ 32 4999#32))
    (maxsi (broadcastInDim S64x2048 ![] Gen.bcast_S_S64x2048 (constantI S_ 32 0#32)) x)

/-- The column of category words the call finds: the clipped words, laid out row-major as [131072, 1]. -/
theorem entry_cat (c : Dev nD) :
    (V m c main_v1 : S131072x1.Idx → BitVec 32)
      = shapeCast S131072x1 (clipped (m ((c : Thread nD τ).loc main_arg1))) Gen.shapeCasts_S64x2048_S131072x1 := by
  dsimp only [V]
  simp only [hostOps0, hostOps0_1, hostOps0_2, List.flatten_cons, List.flatten_nil, List.append_nil, List.cons_append, List.nil_append]
  after_results
  rfl

/-- The prefetched table the call finds: the masked positions, laid out as a [64] vector. -/
theorem entry_pos (c : Dev nD) :
    (V m c main_v2 : S64.Idx → BitVec 32)
      = shapeCast S64 (m ((c : Thread nD τ).loc main_arg2)) Gen.shapeCasts_S64x1_S64 := by
  dsimp only [V]
  simp only [hostOps0, hostOps0_1, hostOps0_2, List.flatten_cons, List.flatten_nil, List.append_nil, List.cons_append, List.nil_append]
  after_results
  rfl

/-- The embedding table the call finds: the argument converted to bf16. -/
theorem entry_tbl (c : Dev nD) :
    (V m c main_v3 : S5000x512.Idx → F .bf16)
      = truncf .bf16 (m ((c : Thread nD τ).loc main_arg3)) bitsLt_bf16_f32 := by
  dsimp only [V]
  simp only [hostOps0, hostOps0_1, hostOps0_2, List.flatten_cons, List.flatten_nil, List.append_nil, List.cons_append, List.nil_append]
  after_results

/-- The clipped category at (b, p), a word at a time. -/
theorem clipped_apply (x : IVec S64x2048 32) (i : S64x2048.Idx) :
    clipped x i = IntOp.minsi 4999#32 (IntOp.maxsi 0#32 (x i)) := rfl

/-- A category word already in `[0, 5000)` is its own clip. -/
theorem clip_of_in_range (w : BitVec 32) (h0 : 0 ≤ w.toInt) (h1 : w.toInt < 5000) :
    IntOp.minsi 4999#32 (IntOp.maxsi 0#32 w) = w := by
  have z0 : (0#32 : BitVec 32).toInt = 0 := by decide
  have z1 : (4999#32 : BitVec 32).toInt = 4999 := by decide
  have e1 : IntOp.maxsi 0#32 w = w := by
    unfold IntOp.maxsi
    rw [if_neg]
    rw [BitVec.slt_iff_toInt_lt, z0]
    omega
  rw [e1]
  unfold IntOp.minsi
  rw [if_neg]
  rw [BitVec.slt_iff_toInt_lt, z1]
  omega

/-! ## The blocks at a grid point, read at explicit coordinates -/

/-- Row `r` of grid point `t`'s category block is the clipped category of batch `t / 4` at position `512 (t % 4) + r`:
    row `512 t + r` of the column is index `2048 (t / 4) + 512 (t % 4) + r` of the row-major layout. -/
theorem cat_block (hO : Ok m) (c : Dev nD) (t : Fin (cfgM m hO).N) (r : Fin 512) :
    (iblk m hO c 0 t : S512x1.Idx → BitVec 32) (ix2 r (0 : Fin 1))
      = clipped (m ((c : Thread nD τ).loc main_arg1)) (ix2 (batchOf t) (posOf t r)) := by
  obtain ⟨e0, e1, -⟩ := grid_facts t
  show (V m c main_v1 : S131072x1.Idx → BitVec 32) ((((cfgM m hO).win 0).blk t).view.emb (ix2 r (0 : Fin 1))) = _
  rw [entry_cat]
  refine shapeCast_apply _ _ _ _ ?_
  refine (Shape.rowMajor_val_two (d := ![64, 2048]) (ix2 (batchOf t) (posOf t r))).trans ?_
  refine Eq.trans ?_ (Shape.rowMajor_val_two (d := ![131072, 1]) _).symm
  show ((batchOf t).val * 2048 + (posOf t r).val)
    = (cc0_transform_0 (grid0.coords t) (0 : Fin 2) * 512 + 1 * r.val) * 1 + (cc0_transform_0 (grid0.coords t) (1 : Fin 2) * 1 + 1 * 0)
  rw [e0, e1]
  show t.val / 4 * 2048 + (t.val % 4 * 512 + r.val) = _
  omega

/-- Grid point `t`'s table block is the whole embedding table the call finds: block (0, 0) of one block. -/
theorem tbl_block (hO : Ok m) (c : Dev nD) (t : Fin (cfgM m hO).N) (n : Fin 5000) (q : Fin 512) :
    (iblk m hO c 1 t : S5000x512.Idx → F .bf16) (ix2 n q)
      = truncf .bf16 (m ((c : Thread nD τ).loc main_arg3)) bitsLt_bf16_f32 (ix2 n q) := by
  obtain ⟨-, -, e0, e1, -⟩ := grid_facts t
  show (V m c main_v3 : S5000x512.Idx → F .bf16) ((((cfgM m hO).win 1).blk t).view.emb (ix2 n q)) = _
  rw [entry_tbl]
  congr 1
  funext a; apply Fin.ext
  match a with
  | ⟨0, _⟩ => show cc0_transform_1 (grid0.coords t) (0 : Fin 2) * 5000 + 1 * n.val = n.val; rw [e0]; omega
  | ⟨1, _⟩ => show cc0_transform_1 (grid0.coords t) (1 : Fin 2) * 512 + 1 * q.val = q.val; rw [e1]; omega

/-- Row `r`, feature `q` of grid point `t`'s input block is the input of batch `t / 4` at position
    `512 (t % 4) + r`, feature `q`. -/
theorem inp_block (hO : Ok m) (c : Dev nD) (t : Fin (cfgM m hO).N) (z : Fin 1) (r q : Fin 512) :
    (iblk m hO c 2 t : S1x512x512.Idx → F .f32) (ix3 z r q)
      = m ((c : Thread nD τ).loc main_arg0) (ix3 (batchOf t) (posOf t r) q) := by
  obtain ⟨-, -, -, -, e0, e1, e2, -⟩ := grid_facts t
  show (V m c main_arg0 : S64x2048x512.Idx → F .f32) ((((cfgM m hO).win 2).blk t).view.emb (ix3 z r q)) = _
  rw [V_main_arg0]
  congr 1
  funext a; apply Fin.ext
  have hz : z.val = 0 := by have := z.isLt; omega
  match a with
  | ⟨0, _⟩ => show cc0_transform_2 (grid0.coords t) (0 : Fin 3) * 1 + 1 * z.val = t.val / 4; rw [e0]; omega
  | ⟨1, _⟩ => show cc0_transform_2 (grid0.coords t) (1 : Fin 3) * 512 + 1 * r.val = t.val % 4 * 512 + r.val; rw [e1]; omega
  | ⟨2, _⟩ => show cc0_transform_2 (grid0.coords t) (2 : Fin 3) * 512 + 1 * q.val = q.val; rw [e2]; omega

/-- Row `r`, feature `q` of grid point `t`'s output block is the array's element of batch `t / 4` at position
    `512 (t % 4) + r`, feature `q`. -/
theorem out_index (hO : Ok m) (t : Fin (cfgM m hO).N) (z : Fin 1) (r q : Fin 512) :
    (((cfgM m hO).win 3).blk t).view.emb (ix3 z r q) = (ix3 (batchOf t) (posOf t r) q : S64x2048x512.Idx) := by
  obtain ⟨-, -, -, -, -, -, -, e0, e1, e2, -⟩ := grid_facts t
  funext a; apply Fin.ext
  have hz : z.val = 0 := by have := z.isLt; omega
  match a with
  | ⟨0, _⟩ => show cc0_transform_3 (grid0.coords t) (0 : Fin 3) * 1 + 1 * z.val = t.val / 4; rw [e0]; omega
  | ⟨1, _⟩ => show cc0_transform_3 (grid0.coords t) (1 : Fin 3) * 512 + 1 * r.val = t.val % 4 * 512 + r.val; rw [e1]; omega
  | ⟨2, _⟩ => show cc0_transform_3 (grid0.coords t) (2 : Fin 3) * 512 + 1 * q.val = q.val; rw [e2]; omega

/-- The word grid point `t` reads from the prefetched table is the masked position of batch `t / 4`. -/
theorem mask_word (hO : Ok m) (c : Dev nD) (t : Fin (cfgM m hO).N) :
    Pieces.maskWord c (grid0.coords t) (tbl m 0) = m (((0 : Dev nD) : Thread nD τ).loc main_arg2) (ix2 (batchOf t) (0 : Fin 1)) := by
  obtain ⟨-, -, -, -, -, -, -, -, -, -, -, -, e0⟩ := grid_facts t
  show (tbl m 0 : S64.Idx → BitVec 32) _ = _
  unfold tbl
  show (V m (0 : Dev nD) main_v2 : S64.Idx → BitVec 32) _ = _
  rw [entry_pos]
  refine shapeCast_apply _ _ _ _ ?_
  refine (Shape.rowMajor_val_two (d := ![64, 1]) (ix2 (batchOf t) (0 : Fin 1))).trans ?_
  refine Eq.trans ?_ (Shape.rowMajor_val_one (d := ![64]) _).symm
  show (batchOf t).val * 1 + 0 = k0_off1 (grid0.coords t) (0 : Fin 1) + 1 * 0
  rw [e0]
  show t.val / 4 * 1 + 0 = _
  omega

end Cert.KernelIdeal.Entry

end
-- ==== Proof.Spec.lean ====
/-
  The specification: what both programs compute, as ONE function of the four argument arrays, index by index.

  For a batch `b`, a sequence position `p` and a feature `q`, the result is
      inputs[b, p, q] + e[b, p, q],
  where the embedding term `e[b, p, q]` is
      0                              when `p` is the batch's masked position, `mask_positions[b]`;
      0                              when the category `categories[b, p]` is the padding category 0;
      table[categories[b, p], q]     otherwise.
  The category words index the table's 5000 rows and the masked positions the 2048 sequence positions; both programs
  agree with this function when those integer inputs are in range (`CatInRange`, `PosInRange`).
-/
import Idealize.ShloMosaic.PureOps.Ideal
import Idealize.ShloMosaic.Lib.ValueIdx

noncomputable section

namespace Cert.Spec

open Idealize.ShloMosaic Idealize.ShloMosaic.ValueIdx

/-- The table row a category word selects: its signed value, kept inside the table's 5000 rows. -/
def rowOf (w : BitVec 32) : Fin 5000 := ⟨min w.toInt.toNat 4999, by omega⟩

/-- Every category word, read signed, is a row of the table: `0 ≤ c < 5000`. -/
def CatInRange (cat : IVec ⟨2, ![64, 2048]⟩ 32) : Prop := ∀ i, 0 ≤ (cat i).toInt ∧ (cat i).toInt < 5000

/-- Every masked position, read signed, is a sequence position: `0 ≤ p < 2048`. -/
def PosInRange (mp : IVec ⟨2, ![64, 1]⟩ 32) : Prop := ∀ i, 0 ≤ (mp i).toInt ∧ (mp i).toInt < 2048

/-- The embedding term at batch `b`, position `p`, feature `q`: zero at the batch's masked position and at a padding
    category, else the table's row for the category. -/
def embedding (cat : IVec ⟨2, ![64, 2048]⟩ 32) (mp : IVec ⟨2, ![64, 1]⟩ 32) (tbl : FVec Ideal ⟨2, ![5000, 512]⟩ .f32)
    (b : Fin 64) (p : Fin 2048) (q : Fin 512) : EReal :=
  if (mp (ix2 b (0 : Fin 1))).toInt = (p.val : Int) then 0
  else if cat (ix2 b p) = 0#32 then 0
  else tbl (ix2 (rowOf (cat (ix2 b p))) q)

/-- The result array: the inputs plus the embedding term, element by element. -/
def result (inp : FVec Ideal ⟨3, ![64, 2048, 512]⟩ .f32) (cat : IVec ⟨2, ![64, 2048]⟩ 32) (mp : IVec ⟨2, ![64, 1]⟩ 32)
    (tbl : FVec Ideal ⟨2, ![5000, 512]⟩ .f32) : FVec Ideal ⟨3, ![64, 2048, 512]⟩ .f32 :=
  fun i => inp i + embedding cat mp tbl (i 0) (i 1) (i 2)

end Cert.Spec

end
-- ==== Proof.KernelPayload.lean ====
/-
  The kernel body's arithmetic, read at one index.

  At row r and feature q of a tile, the stored value is
      x(0, r, q) + ((Σ_{n < 5000} onehot(r, n) · table(n, q)) · pad(r)) · keep(r),
  where onehot(r, n) is 1 when the word of column n equals row r's category word and 0 otherwise, pad(r) is 0 when that
  category word is the padding category 0 and 1 otherwise, and keep(r) is 0 when the row's position c · 512 + r (c the tile's
  number) is the batch's masked position and 1 otherwise. For a category word whose signed value lies in [0, 5000) exactly one
  column's word equals it — the column of that value —, so the sum keeps one term, the table's row for the category; the two
  0/1 factors then give the three cases of the embedding term. Everything is over the extended reals, where 0 · x = 0 and
  1 · x = x for every x, so no finiteness is used.
-/
import proofs.«401667_j9019431321845_3_alg».proof.Proof.Gen.KernelIdeal.Skeleton
import proofs.«401667_j9019431321845_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelPayload

open Cert.KernelIdeal Cert.KernelIdeal.Gen Idealize.ShloMosaic Idealize.ShloMosaic.ValueIdx
open scoped BigOperators

/-- The column-index array the kernel keeps: entry (r, n) is the word of n. -/
theorem iota_apply (r : Fin 512) (n : Fin 5000) : k0_pay1 (ix2 r n) = BitVec.ofNat 32 n.val := by
  unfold k0_pay1
  rw [shapeCast_self, iota_single_apply]

/-! ## The pure laws: words, and a sum with one surviving term -/

/-- A one-bit word widened to 32 bits and read signed is the number 1 or 0. -/
theorem bit_value (b : BitVec 1) :
    (FloatOps.sitofp (F := Ideal) .f32 (b.setWidth 32) : EReal) = if b = 1#1 then 1 else 0 := by
  rcases BitVec.eq_zero_or_eq_one b with h | h <;> subst h <;> simp [FloatOps.sitofp]

/-- The signed value of the word of a natural number below 2^31 is that number. -/
theorem toInt_ofNat_small (m : ℕ) (hm : m < 2 ^ 31) : (BitVec.ofNat 32 m).toInt = (m : ℤ) := by
  rw [BitVec.toInt_eq_toNat_cond, BitVec.toNat_ofNat]
  have h1 : m % 2 ^ 32 = m := Nat.mod_eq_of_lt (by omega)
  rw [h1, if_pos (by omega)]

/-- A word is the word of a natural number below 2^31 exactly when its signed value is that number. -/
theorem ofNat_eq_iff_toInt (w : BitVec 32) (m : ℕ) (hm : m < 2 ^ 31) : BitVec.ofNat 32 m = w ↔ w.toInt = (m : ℤ) := by
  constructor
  · intro e; rw [← e]; exact toInt_ofNat_small m hm
  · intro e; apply BitVec.eq_of_toInt_eq; rw [e]; exact toInt_ofNat_small m hm

/-- For a category word inside the table's rows, the column whose word it is is the row it selects. -/
theorem ofNat_eq_iff_rowOf (w : BitVec 32) (h : 0 ≤ w.toInt ∧ w.toInt < 5000) (n : Fin 5000) :
    BitVec.ofNat 32 n.val = w ↔ n = Cert.Spec.rowOf w := by
  have hn := n.isLt
  rw [ofNat_eq_iff_toInt w n.val (by omega)]
  constructor
  · intro e; apply Fin.ext; show n.val = min w.toInt.toNat 4999; omega
  · intro e; rw [e]; show w.toInt = ((min w.toInt.toNat 4999 : ℕ) : ℤ); omega

/-- The word of the tile's first row plus the word of the row inside the tile is the word of the row's position. -/
theorem pos_word (c r : ℕ) (hc : c < 4) (hr : r < 512) :
    IntOp.addi (Scalar.muli (BitVec.ofNat 32 c) 512#32) (BitVec.ofNat 32 r) = BitVec.ofNat 32 (c * 512 + r) := by
  apply BitVec.eq_of_toNat_eq
  simp only [IntOp.addi, Scalar.muli, IntOp.muli, BitVec.toNat_add, BitVec.toNat_mul, BitVec.toNat_ofNat]
  omega

/-- A sum of products whose first factors are 1 at one index and 0 at every other is the second factor there; no
    finiteness is needed, since 0 · x = 0 for every extended real. -/
theorem sum_onehot {N : ℕ} (c : Fin N → Prop) [DecidablePred c] (f : Fin N → EReal) (m : Fin N)
    (hc : ∀ n, c n ↔ n = m) : ∑ n, (if c n then (1 : EReal) else 0) * f n = f m := by
  rw [Finset.sum_eq_single m]
  · rw [if_pos ((hc m).mpr rfl), one_mul]
  · intro n _ hn; rw [if_neg (fun h => hn ((hc n).mp h)), zero_mul]
  · intro h; exact absurd (Finset.mem_univ m) h

/-! ## The layout and contraction operations read at an index -/

/-- A column `[a, 1]` broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand's row coordinate is the result's row. -/
theorem lhs_axis0 (j : S512x512.Idx) (k : dot_S512x5000_S5000x512_S512x512_1_0_0_1_n_n.contr.Idx) :
    (dot_S512x5000_S5000x512_S512x512_1_0_0_1_n_n.lhsIdx j k 0).val = (j 0).val := by
  unfold DotDims.lhsIdx
  rw [dif_neg (show ¬(0 : Fin S512x5000.rank) ∈ dot_S512x5000_S5000x512_S512x512_1_0_0_1_n_n.lhsBatch by decide),
    dif_pos (show (0 : Fin S512x5000.rank) ∈ dot_S512x5000_S5000x512_S512x512_1_0_0_1_n_n.lhsNonContracting by decide)]
  rfl

/-- The left operand's column coordinate is the contraction position. -/
theorem lhs_axis1 (j : S512x512.Idx) (k : dot_S512x5000_S5000x512_S512x512_1_0_0_1_n_n.contr.Idx) :
    (dot_S512x5000_S5000x512_S512x512_1_0_0_1_n_n.lhsIdx j k 1).val = (k ⟨0, by decide⟩).val :=
  dot_S512x5000_S5000x512_S512x512_1_0_0_1_n_n.lhsIdx_val_of_single (cl := 1) rfl j k

/-- The right operand's row coordinate is the contraction position. -/
theorem rhs_axis0 (j : S512x512.Idx) (k : dot_S512x5000_S5000x512_S512x512_1_0_0_1_n_n.contr.Idx) :
    (dot_S512x5000_S5000x512_S512x512_1_0_0_1_n_n.rhsIdx j k 0).val = (k ⟨0, by decide⟩).val :=
  dot_S512x5000_S5000x512_S512x512_1_0_0_1_n_n.rhsIdx_val_of_single (cr := 0) rfl j k

/-- The right operand's column coordinate is the result's column. -/
theorem rhs_axis1 (j : S512x512.Idx) (k : dot_S512x5000_S5000x512_S512x512_1_0_0_1_n_n.contr.Idx) :
    (dot_S512x5000_S5000x512_S512x512_1_0_0_1_n_n.rhsIdx j k 1).val = (j 1).val := by
  unfold DotDims.rhsIdx
  rw [dif_neg (show ¬(1 : Fin S5000x512.rank) ∈ dot_S512x5000_S5000x512_S512x512_1_0_0_1_n_n.rhsBatch by decide),
    dif_pos (show (1 : Fin S5000x512.rank) ∈ dot_S512x5000_S5000x512_S512x512_1_0_0_1_n_n.rhsNonContracting by decide)]
  rfl

/-- The matrix product into the zero accumulator, read at `(r, q)`: the sum over the 5000 contracted positions. -/
theorem matmul_read (A : FVec Ideal S512x5000 .bf16) (B : FVec Ideal S5000x512 .bf16) (r q : Fin 512) :
    matmul dot_S512x5000_S5000x512_S512x512_1_0_0_1_n_n none A B (constant (F := Ideal) S512x512 .f32 0x00000000#32) (ix2 r q)
      = ∑ n : Fin 5000, A (ix2 r n) * B (ix2 n q) := by
  show FloatOps.matmul _ none A B _ (ix2 r q) = _
  rw [Ideal.matmul_constant_zero_apply, ← Equiv.sum_comp (contrEquiv1 dot_S512x5000_S5000x512_S512x512_1_0_0_1_n_n 5000 rfl rfl).symm]
  refine Finset.sum_congr rfl fun n _ => ?_
  have hk := contrEquiv1_symm_val dot_S512x5000_S5000x512_S512x512_1_0_0_1_n_n 5000 rfl rfl n
  have hl : dot_S512x5000_S5000x512_S512x512_1_0_0_1_n_n.lhsIdx (ix2 r q) ((contrEquiv1 dot_S512x5000_S5000x512_S512x512_1_0_0_1_n_n 5000 rfl rfl).symm n) = ix2 r n := by
    funext ax; apply Fin.ext
    match ax with
    | ⟨0, _⟩ => exact lhs_axis0 _ _
    | ⟨1, _⟩ => exact (lhs_axis1 _ _).trans hk
  have hr : dot_S512x5000_S5000x512_S512x512_1_0_0_1_n_n.rhsIdx (ix2 r q) ((contrEquiv1 dot_S512x5000_S5000x512_S512x512_1_0_0_1_n_n 5000 rfl rfl).symm n) = ix2 n q := by
    funext ax; apply Fin.ext
    match ax with
    | ⟨0, _⟩ => exact (rhs_axis0 _ _).trans hk
    | ⟨1, _⟩ => exact rhs_axis1 _ _
  rw [hl, hr]

/-! ## The three 0/1 factors of the payload -/

/-- The one-hot matrix at `(r, n)`: 1 when column `n`'s word is row `r`'s category word, else 0 (the narrowing to
    bf16 changes no ideal value). -/
theorem onehot_apply (v3 : IVec S512x1 32) (r : Fin 512) (n : Fin 5000) :
    (truncf .bf16 (sitofp (F := Ideal) .f32 (extui 32 (cmpi .eq k0_pay1
        (broadcastTo S512x5000 (shapeCast S512x1 v3 shapeCasts_S512x1_S512x1) broadcasts_S512x1_S512x5000)) natLt_1_32))
        bitsLt_bf16_f32) (ix2 r n)
      = if BitVec.ofNat 32 n.val = v3 (ix2 r (0 : Fin 1)) then 1 else 0 := by
  rw [truncf_apply, sitofp_apply, extui_apply, bit_value]
  show (if IntOp.cmpi .eq (k0_pay1 (ix2 r n))
      (broadcastTo S512x5000 (shapeCast S512x1 v3 shapeCasts_S512x1_S512x1) broadcasts_S512x1_S512x5000 (ix2 r n)) = 1#1
    then (1 : EReal) else 0) = _
  rw [iota_apply, broadcastTo_a1_ab_apply, shapeCast_self]
  simp only [IntOp.cmpi_eq]

/-- The padding factor at `(r, q)`: 0 when row `r`'s category word is the padding category 0, else 1. -/
theorem pad_apply (v3 : IVec S512x1 32) (r q : Fin 512) :
    broadcastTo S512x512 (sitofp (F := Ideal) .f32 (extui 32 (cmpi .ne (shapeCast S512x1 v3 shapeCasts_S512x1_S512x1)
        (broadcast S512x1 0#32)) natLt_1_32)) broadcasts_S512x1_S512x512 (ix2 r q)
      = if v3 (ix2 r (0 : Fin 1)) = 0#32 then 0 else 1 := by
  rw [broadcastTo_a1_ab_apply, sitofp_apply, extui_apply, bit_value]
  show (if IntOp.cmpi .ne (shapeCast S512x1 v3 shapeCasts_S512x1_S512x1 (ix2 r (0 : Fin 1))) 0#32 = 1#1
    then (1 : EReal) else 0) = _
  rw [shapeCast_self]
  simp only [IntOp.cmpi_ne, ne_eq, ite_not]

/-- The masked-position factor at `(r, q)`: 0 when the position of row `r` of tile `c`, `c · 512 + r`, is the
    batch's masked position, else 1. -/
theorem keep_apply (c : ℕ) (hc : c < 4) (v25 : BitVec 32) (r q : Fin 512) :
    broadcastTo S512x512 (sitofp (F := Ideal) .f32 (extui 32 (cmpi .ne
        (addi (broadcast S512x1 (Scalar.muli (BitVec.ofNat 32 c) 512#32)) (iota .tc S512x1 32 [0] iota_S512x1_d0_w32))
        (broadcast S512x1 v25)) natLt_1_32)) broadcasts_S512x1_S512x512 (ix2 r q)
      = if v25.toInt = ((c * 512 + r.val : ℕ) : Int) then 0 else 1 := by
  rw [broadcastTo_a1_ab_apply, sitofp_apply, extui_apply, bit_value]
  show (if IntOp.cmpi .ne (IntOp.addi (Scalar.muli (BitVec.ofNat 32 c) 512#32)
      (iota .tc S512x1 32 [0] iota_S512x1_d0_w32 (ix2 r (0 : Fin 1)))) v25 = 1#1 then (1 : EReal) else 0) = _
  rw [iota_single_apply]
  show (if IntOp.cmpi .ne (IntOp.addi (Scalar.muli (BitVec.ofNat 32 c) 512#32) (BitVec.ofNat 32 r.val)) v25 = 1#1
    then (1 : EReal) else 0) = _
  have hr := r.isLt
  rw [pos_word c r.val hc hr]
  simp only [IntOp.cmpi_ne, ne_eq, ite_not, ofNat_eq_iff_toInt v25 (c * 512 + r.val) (by omega)]

/-! ## The payload at an index -/

/-- THE KERNEL BODY'S ARITHMETIC AT `(0, r, q)`: the input block's entry plus the embedding term — zero at the batch's
    masked position and at the padding category, else the table's row for the category word. -/
theorem pay_apply (i : grid0.Coords) (v3 : Vec Ideal S512x1 .i32) (v11 : Vec Ideal S5000x512 .bf16) (v25 : BitVec 32) (v32 : Vec Ideal S1x512x512 .f32) (r q : Fin 512) (h3 : 0 ≤ (v3 (ix2 r (0 : Fin 1))).toInt ∧ (v3 (ix2 r (0 : Fin 1))).toInt < 5000) :
      k0_pay2 (F := Ideal) i v3 k0_pay1 v11 v25 v32 (ix3 (0 : Fin 1) r q)
        = v32 (ix3 (0 : Fin 1) r q) + (if v25.toInt = (((i 1).val * 512 + r.val : ℕ) : Int) then 0 else if v3 (ix2 r (0 : Fin 1)) = 0#32 then 0 else v11 (ix2 (Cert.Spec.rowOf (v3 (ix2 r (0 : Fin 1)))) q)) := by
  unfold k0_pay2
  rw [shapeCast_ab_1ab_apply, addf_apply, shapeCast_1ab_ab_apply, mulf_apply, mulf_apply, matmul_read,
    pad_apply, keep_apply (i 1).val (i 1).isLt]
  simp only [onehot_apply]
  simp only [shapeCast_self]
  rw [sum_onehot (fun n : Fin 5000 => BitVec.ofNat 32 n.val = v3 (ix2 r (0 : Fin 1))) (fun n => v11 (ix2 n q))
    (Cert.Spec.rowOf (v3 (ix2 r (0 : Fin 1)))) (ofNat_eq_iff_rowOf _ h3)]
  by_cases hm : v25.toInt = (((i 1).val * 512 + r.val : ℕ) : Int)
  · rw [if_pos hm, if_pos hm, mul_zero]
  · rw [if_neg hm, if_neg hm, mul_one]
    by_cases hp : v3 (ix2 r (0 : Fin 1)) = 0#32
    · rw [if_pos hp, if_pos hp, mul_zero]
    · rw [if_neg hp, if_neg hp, mul_one]

end Cert.KernelPayload

end
-- ==== Proof.KernelValue.lean ====
/-
  The idealized kernel's result array, as the specification of the argument arrays.

  Grid point `t` (batch `t / 4`, sequence tile `t % 4`) writes back one [1, 512, 512] block: row `r`, feature `q` of it
  is the body's arithmetic at that row, which under the category range is
      input + (0 at the batch's masked position, 0 at a padding category, else the table's row for the category),
  that is, the specification at batch `t / 4`, position `512 (t % 4) + r`, feature `q` — the element of the array the
  block's row is written to. The 256 blocks tile the [64, 2048, 512] array (position `p` of batch `b` lies in the block
  of point `4 b + p / 512`), so after the run the whole array is the specification.
-/
import proofs.«401667_j9019431321845_3_alg».proof.Proof.KernelCarried
import proofs.«401667_j9019431321845_3_alg».proof.Proof.KernelEntry
import proofs.«401667_j9019431321845_3_alg».proof.Proof.KernelPayload
import proofs.«401667_j9019431321845_3_alg».proof.Proof.Spec

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Entry

variable (m : (ℓ : Loc nD τ sig) → Buf (Elt Ideal) ℓ) (ρ : Dev nD → PrngReg)

/-- The specification of the four argument arrays as core `c` holds them at launch. -/
abbrev spec (c : Dev nD) : FVec Ideal ⟨3, ![64, 2048, 512]⟩ .f32 :=
  Cert.Spec.result (m ((c : Thread nD τ).loc main_arg0)) (m ((c : Thread nD τ).loc main_arg1))
    (m ((c : Thread nD τ).loc main_arg2)) (m ((c : Thread nD τ).loc main_arg3))

/-- The category range, of core `c`'s category argument. -/
abbrev CatOk (c : Dev nD) : Prop := Cert.Spec.CatInRange (m ((c : Thread nD τ).loc main_arg1))

/-- Row `r`, feature `q` of what grid point `t` computes is the specification at batch `t / 4`, position
    `512 (t % 4) + r`, feature `q`. -/
theorem point_value (hO : Ok m) (c : Dev nD) (hc : CatOk m c) (t : Fin (cfgM m hO).N) (z : Fin 1) (r q : Fin 512) :
    k0_pay2 (F := Ideal) (grid0.coords t) (iblk m hO c 0 t) k0_pay1 (iblk m hO c 1 t)
        (Pieces.maskWord c (grid0.coords t) (tbl m 0)) (iblk m hO c 2 t) (ix3 z r q)
      = spec m c (ix3 (batchOf t) (posOf t r) q) := by
  obtain rfl : z = 0 := Subsingleton.elim _ _
  obtain rfl : c = 0 := Subsingleton.elim _ _
  have hcat : (iblk m hO 0 0 t : S512x1.Idx → BitVec 32) (ix2 r (0 : Fin 1))
      = m (((0 : Dev nD) : Thread nD τ).loc main_arg1) (ix2 (batchOf t) (posOf t r)) := by
    rw [cat_block, clipped_apply, clip_of_in_range _ (hc _).1 (hc _).2]
  have hs : ((grid0.coords t) 1).val = t.val % 4 := (grid_facts t).2.2.2.2.2.2.2.2.2.2.2.1
  refine (Cert.KernelPayload.pay_apply (grid0.coords t) (iblk m hO 0 0 t) (iblk m hO 0 1 t)
    (Pieces.maskWord 0 (grid0.coords t) (tbl m 0)) (iblk m hO 0 2 t) r q (by rw [hcat]; exact hc _)).trans ?_
  rw [inp_block, hcat, tbl_block, mask_word, hs]
  rfl

/-- Block `t` of any [64, 2048, 512] array, read through the output window at row `r`, feature `q`: the array at
    batch `t / 4`, position `512 (t % 4) + r`, feature `q`. -/
theorem block_at (hO : Ok m) (t : Fin (cfgM m hO).N) (G : S64x2048x512.Idx → EReal) (z : Fin 1) (r q : Fin 512) :
    (((cfgM m hO).win 3).blk t).view.read (Elt Ideal) G (ix3 z r q) = G (ix3 (batchOf t) (posOf t r) q) := by
  show G ((((cfgM m hO).win 3).blk t).view.emb (ix3 z r q)) = _
  rw [out_index]

/-- At every index of the block, what grid point `t` computes is block `t` of the specification. -/
theorem flushed_at (hO : Ok m) (c : Dev nD) (hc : CatOk m c) (t : Fin (cfgM m hO).N) (j : S1x512x512.Idx) :
    k0_pay2 (F := Ideal) (grid0.coords t) (iblk m hO c 0 t) k0_pay1 (iblk m hO c 1 t)
        (Pieces.maskWord c (grid0.coords t) (tbl m 0)) (iblk m hO c 2 t) j
      = (((cfgM m hO).win 3).blk t).view.read (Elt Ideal) (spec m c) j := by
  obtain ⟨z, r, q, rfl⟩ : ∃ (z : Fin 1) (r q : Fin 512), j = ix3 z r q := ⟨j 0, j 1, j 2, eq_ix3 j⟩
  exact (point_value m hO c hc t z r q).trans (block_at m hO t (spec m c) z r q).symm

/-- WHAT GRID POINT `t` WRITES BACK is block `t` of the specification. -/
theorem flushed_eq (hO : Ok m) (c : Dev nD) (hc : CatOk m c) (t : Fin (cfgM m hO).N) :
    (dats m hO 0 c).flushed 3 t = (((cfgM m hO).win 3).blk t).view.read (Elt Ideal) (spec m c) := by
  show ((cfgM m hO).win 3).cut (grid0.coords t) ((dats m hO 0 c).after 3 t) = _
  rw [after0_3, Carried.out_eq]
  funext j
  exact flushed_at m hO c hc t j

/-- The grid point whose block holds position `p` of batch `b`: point `4 b + p / 512`. -/
abbrev pointOf (b : Fin 64) (p : Fin 2048) : Fin grid0.N :=
  ⟨b.val * 4 + p.val / 512, by have := b.isLt; have := p.isLt; have : grid0.N = 256 := N_0; omega⟩

/-- Every element of the output array lies in the block of the grid point of its batch and sequence tile. -/
theorem covered (hO : Ok m) (i : S64x2048x512.Idx) :
    ∃ t : Fin (cfgM m hO).N, ((cfgM m hO).win 3).flush t = true ∧ i ∈ (((cfgM m hO).win 3).blk t).view.set := by
  obtain ⟨b, p, q, rfl⟩ : ∃ (b : Fin 64) (p : Fin 2048) (q : Fin 512), i = ix3 b p q := ⟨i 0, i 1, i 2, eq_ix3 i⟩
  refine ⟨pointOf b p, flush0_3 (adm m hO) _, ?_⟩
  obtain ⟨-, -, -, -, -, -, -, e0, e1, e2, -⟩ := grid_facts (pointOf b p)
  have h0 : b.val < 64 := b.isLt
  have h1 : p.val < 2048 := p.isLt
  have h2 : q.val < 512 := q.isLt
  have hs := View.set_slice_whole main_v4 (((cfgM m hO).win 3).rect (pointOf b p))
  refine (Finset.ext_iff.mp hs _).mpr ?_
  refine Rect.mem_set_unit.mpr fun a => ?_
  match a with
  | ⟨0, _⟩ =>
    show cc0_transform_3 (grid0.coords (pointOf b p)) (0 : Fin 3) * 1 ≤ b.val
      ∧ b.val < cc0_transform_3 (grid0.coords (pointOf b p)) (0 : Fin 3) * 1 + 1
    rw [e0]; show (b.val * 4 + p.val / 512) / 4 * 1 ≤ _ ∧ _ < (b.val * 4 + p.val / 512) / 4 * 1 + 1; omega
  | ⟨1, _⟩ =>
    show cc0_transform_3 (grid0.coords (pointOf b p)) (1 : Fin 3) * 512 ≤ p.val
      ∧ p.val < cc0_transform_3 (grid0.coords (pointOf b p)) (1 : Fin 3) * 512 + 512
    rw [e1]; show (b.val * 4 + p.val / 512) % 4 * 512 ≤ _ ∧ _ < (b.val * 4 + p.val / 512) % 4 * 512 + 512; omega
  | ⟨2, _⟩ =>
    show cc0_transform_3 (grid0.coords (pointOf b p)) (2 : Fin 3) * 512 ≤ q.val
      ∧ q.val < cc0_transform_3 (grid0.coords (pointOf b p)) (2 : Fin 3) * 512 + 512
    rw [e2]; omega

/-- THE OUTPUT ARRAY after the run is the specification of the argument arrays. -/
theorem final (hO : Ok m) (c : Dev nD) (hc : CatOk m c) : (dats m hO 0 c).arrAt 3 (cfgM m hO).N = spec m c :=
  (dats m hO 0 c).arrAt_eq_of_cover 3 (spec m c) (fun t _ => flushed_eq m hO c hc t) (covered m hO)

/-- The run, read: every weakly fair execution ends with the result array at the specification and the four argument
    arrays unchanged. -/
theorem run (hO : Ok m) (hc : ∀ c, CatOk m c) :
    θ_run defs (onTc (τ := τ) (main (F := Ideal))) ⟨m, fun _ => 0, ρ⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).1 3).trans (final m hO c (hc c)),
      ((h c).1 2).trans (((dats m hO 0 c).arrAt_in 2 rfl _).trans ((A_eq m hO c 2).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.Result

end
-- ==== Proof.LibScatterRead.lean ====
/-
  A scatter read at one element. The host's scatter is a left fold over the update indices in row-major order; each step
  replaces the element at the update's result index by the body applied to that element and the update's. Read at one
  element of the operand: if no update index lands there, the element is unchanged; if exactly one does, it is the body
  applied to the operand's element and that update's.
-/
import Idealize.ShloMosaic.PureOps.ShapeOps
import Mathlib.Data.List.Nodup
import Mathlib.Data.List.FinRange

namespace Idealize.ShloMosaic

section Fold

variable {ι σ α : Type} [DecidableEq σ]

/-- One step of a scatter's fold: update `n`, landing at `g n` (or nowhere), applied to the array `r`. -/
def scatterStep (g : ι → Option σ) (f : α → α → α) (v : ι → α) (r : σ → α) (n : ι) : σ → α :=
  match g n with
  | some i => fun i' => if i' = i then f (r i) (v n) else r i'
  | none => r

/-- A step whose update does not land on `i'` leaves the element at `i'` as it was. -/
theorem scatterStep_of_ne (g : ι → Option σ) (f : α → α → α) (v : ι → α) (r : σ → α) (n : ι) (i' : σ)
    (h : g n ≠ some i') : scatterStep g f v r n i' = r i' := by
  unfold scatterStep
  cases hg : g n with
  | none => rfl
  | some i =>
    have hne : ¬ i' = i := fun e => h (by rw [hg, e])
    simp only [if_neg hne]

/-- A step whose update lands on `i'` puts there the body applied to the element and the update. -/
theorem scatterStep_of_eq (g : ι → Option σ) (f : α → α → α) (v : ι → α) (r : σ → α) (n : ι) (i' : σ)
    (h : g n = some i') : scatterStep g f v r n i' = f (r i') (v n) := by
  unfold scatterStep
  simp only [h, if_true]

/-- Folding updates none of which lands on `i'` leaves the element at `i'` as it was. -/
theorem foldl_scatterStep_of_miss (g : ι → Option σ) (f : α → α → α) (v : ι → α) (i' : σ) :
    ∀ (L : List ι) (x : σ → α), (∀ n ∈ L, g n ≠ some i') → L.foldl (scatterStep g f v) x i' = x i'
  | [], _, _ => rfl
  | n :: L, x, h => by
    rw [List.foldl_cons, foldl_scatterStep_of_miss g f v i' L _ (fun m hm => h m (List.mem_cons_of_mem _ hm)),
      scatterStep_of_ne g f v x n i' (h n List.mem_cons_self)]

/-- Folding a duplicate-free list of updates exactly one of which, `n₀`, lands on `i'` puts there the body applied
    to the first array's element and that update. -/
theorem foldl_scatterStep_of_unique (g : ι → Option σ) (f : α → α → α) (v : ι → α) (i' : σ) (n₀ : ι)
    (h₀ : g n₀ = some i') :
    ∀ (L : List ι) (x : σ → α), L.Nodup → n₀ ∈ L → (∀ n ∈ L, g n = some i' → n = n₀) →
      L.foldl (scatterStep g f v) x i' = f (x i') (v n₀)
  | [], _, _, hm, _ => absurd hm List.not_mem_nil
  | n :: L, x, hnd, hm, hu => by
    rw [List.foldl_cons]
    have hnd' := List.nodup_cons.1 hnd
    by_cases hn : n = n₀
    · subst hn
      rw [foldl_scatterStep_of_miss g f v i' L _ (fun m hmL e => by
          have := hu m (List.mem_cons_of_mem _ hmL) e
          exact hnd'.1 (this ▸ hmL)),
        scatterStep_of_eq g f v x n i' h₀]
    · have hmL : n₀ ∈ L := by
        rcases List.mem_cons.1 hm with e | e
        · exact absurd e.symm hn
        · exact e
      rw [foldl_scatterStep_of_unique g f v i' n₀ h₀ L _ hnd'.2 hmL (fun m hmm => hu m (List.mem_cons_of_mem _ hmm)),
        scatterStep_of_ne g f v x n i' (fun e => hn (hu n List.mem_cons_self e))]

end Fold

section Scatter

variable {s si u : Shape} {α : Type} {w : Nat}

/-- The host's scatter is the fold of `scatterStep` over the update positions in row-major order. -/
theorem Host.scatter_eq_foldl (d : ScatterDims s si u) (f : α → α → α) (x : s.Idx → α) (idx : IVec si w) (upd : u.Idx → α) :
    Host.scatter d f x idx upd
      = (List.finRange u.numel).foldl
          (scatterStep (fun n => d.resultIdx? (u.rowMajor.symm n) idx) f (fun n => upd (u.rowMajor.symm n))) x := by
  unfold Host.scatter
  refine congrArg (fun st => List.foldl st x (List.finRange u.numel)) ?_
  funext r n
  unfold scatterStep
  beta_reduce
  cases d.resultIdx? (u.rowMajor.symm n) idx <;> rfl

/-- An element of the operand that no update index lands on is unchanged by the scatter. -/
theorem Host.scatter_apply_of_miss (d : ScatterDims s si u) (f : α → α → α) (x : s.Idx → α) (idx : IVec si w)
    (upd : u.Idx → α) (i' : s.Idx) (h : ∀ j : u.Idx, d.resultIdx? j idx ≠ some i') :
    Host.scatter d f x idx upd i' = x i' := by
  rw [Host.scatter_eq_foldl]
  exact foldl_scatterStep_of_miss _ f _ i' _ x (fun n _ => h _)

/-- An element of the operand that exactly one update index `j₀` lands on becomes the body applied to the operand's
    element and that update's. -/
theorem Host.scatter_apply_of_unique (d : ScatterDims s si u) (f : α → α → α) (x : s.Idx → α) (idx : IVec si w)
    (upd : u.Idx → α) (i' : s.Idx) (j₀ : u.Idx) (h₀ : d.resultIdx? j₀ idx = some i')
    (hu : ∀ j : u.Idx, d.resultIdx? j idx = some i' → j = j₀) :
    Host.scatter d f x idx upd i' = f (x i') (upd j₀) := by
  rw [Host.scatter_eq_foldl]
  have := foldl_scatterStep_of_unique (fun n => d.resultIdx? (u.rowMajor.symm n) idx) f
    (fun n => upd (u.rowMajor.symm n)) i' (u.rowMajor j₀) (by simp only [Equiv.symm_apply_apply]; exact h₀)
    (List.finRange u.numel) x (List.nodup_finRange _) (List.mem_finRange _)
    (fun n _ e => by
      have := hu _ e
      rw [← this, Equiv.apply_symm_apply])
  rw [this]
  simp only [Equiv.symm_apply_apply]

end Scatter

end Idealize.ShloMosaic
-- ==== Proof.RefValue.lean ====
/-
  The reference program computes the specification.

  The reference adds to the inputs an array built in three steps. A gather reads, for batch `b` and position `p`, the
  table's row selected by the category word `categories[b, p]` (wrapped when negative, then kept inside the table's
  rows; in range the wrap does nothing and the row is the specification's `rowOf`). A product with the bit
  "the category is not zero", read as `0` or `1`, zeroes the rows of the padding category. A scatter then writes a zero
  row at `(b, mask_positions[b])` for every batch `b`: its index array holds the batch number beside the (wrapped)
  masked position, so update `(b', 0, q')` lands at `(b', mask_positions[b'], q')`, always inside the array when the
  masked positions are in range. Read at one element `(b, p, q)`: when `p` is the batch's masked position exactly one
  update lands there and the element becomes its zero; otherwise none does and the element stays the product. That is
  the specification's embedding term, case by case.

  Every stage is read at explicit coordinates `(b, p)` or `(b, p, q)`; the two stages whose element depends on an
  operand's values (the gather, the scatter) and the concatenation that builds the scatter's indices are read here from
  their definitions.
-/
import proofs.«401667_j9019431321845_3_alg».proof.Proof.Gen.ReferenceIdeal.Read
import proofs.«401667_j9019431321845_3_alg».proof.Proof.Spec
import proofs.«401667_j9019431321845_3_alg».proof.Proof.LibScatterRead
import Idealize.ShloMosaic.Lib.ValueIdx
import Idealize.ShloMosaic.Lib.Pipeline.Value
import Idealize.ShloMosaic.PureOps.Ideal.Laws

noncomputable section

namespace Cert.RefValue

open Cert.ReferenceIdeal Cert.ReferenceIdeal.Gen Cert.ReferenceIdeal.Read Idealize.ShloMosaic Idealize.ShloMosaic.ValueIdx
  Idealize.ShloMosaic.StableHlo

/-! ## Words -/

/-- A word whose signed value is not negative is left alone by "add `k` when negative". -/
theorem wrap_of_nonneg (w k : BitVec 32) (h : 0 ≤ w.toInt) :
    Scalar.select (IntOp.cmpi .slt w 0#32) (IntOp.addi w k) w = w := by
  have hb : IntOp.cmpi .slt w 0#32 = 0#1 := by
    unfold IntOp.cmpi
    have : w.slt 0#32 = false := by
      rw [Bool.eq_false_iff, ne_eq, BitVec.slt_iff_toInt_lt]
      simp only [BitVec.toInt_zero]; omega
    simp only [this]; rfl
  rw [hb]; exact select_zero _ _

/-- The bit "the word is not zero", read unsigned as an extended real: `0` at the zero word, else `1`. -/
theorem ne_zero_bit (w : BitVec 32) :
    (FloatOps.uitofp (F := Ideal) .f32 (IntOp.cmpi .ne w 0#32) : EReal) = if w = 0#32 then 0 else 1 := by
  unfold IntOp.cmpi
  by_cases h : w = 0#32
  · subst h; rw [if_pos rfl]; show (((BitVec.ofBool ((0#32) != 0#32)).toNat : ℝ) : EReal) = 0
    simp
  · rw [if_neg h]
    have : (w != 0#32) = true := by simpa using h
    show (((BitVec.ofBool (w != 0#32)).toNat : ℝ) : EReal) = 1
    rw [this]; simp

/-! ## The category side: the wrapped index word, the gather and the padding factor, at coordinates -/

section Stages

variable (cat : IVec S64x2048 32) (mp : IVec S64x1 32) (tbl : FVec Ideal S5000x512 .f32)

/-- The wrapped category word is the category word when that is not negative. -/
theorem v4_at (b : Fin 64) (p : Fin 2048) (h : 0 ≤ (cat (ix2 b p)).toInt) :
    val_main_v4 (F := Ideal) cat (ix2 b p) = cat (ix2 b p) := by
  rw [val_main_v4_apply, val_main_v1_apply, val_main_v3_apply, val_main_v0_apply, val_main_c_apply,
    val_main_v2_apply, val_main_c_0_apply]
  exact wrap_of_nonneg _ _ h

/-- The start indices `[64, 2048, 1]` at `(b, p, 0)`: the wrapped category word at `(b, p)`. -/
theorem v5_at (b : Fin 64) (p : Fin 2048) (h : 0 ≤ (cat (ix2 b p)).toInt) :
    val_main_v5 (F := Ideal) cat (ix3 b p (0 : Fin 1)) = cat (ix2 b p) := by
  rw [val_main_v5_apply]
  have : idx_main_v5 (ix3 b p (0 : Fin 1)) = ix2 b p := by
    funext a; match a with | ⟨0, _⟩ => rfl | ⟨1, _⟩ => rfl
  rw [this]; exact v4_at cat b p h

/-- The padding factor `[64, 2048, 512]` at `(b, p, q)`: `0` at the padding category, else `1`. -/
theorem v11_at (b : Fin 64) (p : Fin 2048) (q : Fin 512) :
    val_main_v11 (F := Ideal) cat (ix3 b p q) = if cat (ix2 b p) = 0#32 then (0 : EReal) else 1 := by
  rw [val_main_v11_apply, val_main_v10_apply]
  have : idx_main_v10 (idx_main_v11 (ix3 b p q)) = ix2 b p := by
    funext a; match a with | ⟨0, _⟩ => rfl | ⟨1, _⟩ => rfl
  rw [this, val_main_v9_apply, val_main_v8_apply, val_main_v7_apply, val_main_c_1_apply]
  exact ne_zero_bit _

/-- THE GATHER READ AT `(b, p, q)`: the table at the row the start index `(b, p, 0)` selects — its word read signed and
    kept inside the 5000 rows — and at column `q`. -/
theorem v6_at (b : Fin 64) (p : Fin 2048) (q : Fin 512) :
    val_main_v6 (F := Ideal) cat tbl (ix3 b p q)
      = tbl (ix2 (Cert.Spec.rowOf (val_main_v5 (F := Ideal) cat (ix3 b p (0 : Fin 1)))) q) := by
  unfold val_main_v6 Host.gather
  generalize val_main_v5 (F := Ideal) cat = idx
  congr 1
  funext a
  refine Fin.ext ?_
  match a with
  | ⟨0, _⟩ =>
    show gather_S5000x512_S64x2048x1_S64x2048x512_2_0_n_n_0_2_1512.start (ix3 b p q) idx 0
        + gather_S5000x512_S64x2048x1_S64x2048x512_2_0_n_n_0_2_1512.batchCoord (ix3 b p q) 0
        + gather_S5000x512_S64x2048x1_S64x2048x512_2_0_n_n_0_2_1512.offCoord (ix3 b p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S5000x512_S64x2048x1_S64x2048x512_2_0_n_n_0_2_1512.startIndexMap from
      List.mem_singleton.mpr rfl)]
    have hsi : gather_S5000x512_S64x2048x1_S64x2048x512_2_0_n_n_0_2_1512.siIdx (ix3 b p q)
        ⟨List.idxOf (0 : Fin 2) gather_S5000x512_S64x2048x1_S64x2048x512_2_0_n_n_0_2_1512.startIndexMap,
          List.idxOf_lt_length_iff.2 (List.mem_singleton.mpr rfl)⟩ = ix3 b p (0 : Fin 1) := by
      funext c; refine Fin.ext ?_
      match c with
      | ⟨0, _⟩ => rfl
      | ⟨1, _⟩ => rfl
      | ⟨2, _⟩ => rfl
    rw [hsi]
    rfl
  | ⟨1, _⟩ =>
    show gather_S5000x512_S64x2048x1_S64x2048x512_2_0_n_n_0_2_1512.start (ix3 b p q) idx 1
        + gather_S5000x512_S64x2048x1_S64x2048x512_2_0_n_n_0_2_1512.batchCoord (ix3 b p q) 1
        + gather_S5000x512_S64x2048x1_S64x2048x512_2_0_n_n_0_2_1512.offCoord (ix3 b p q) 1 = q.val
    rw [GatherDims.batchCoord_eq_zero _ _ _ List.not_mem_nil]
    unfold GatherDims.start
    rw [dif_neg (show ¬ (1 : Fin 2) ∈ gather_S5000x512_S64x2048x1_S64x2048x512_2_0_n_n_0_2_1512.startIndexMap from by
      intro h; exact absurd (List.mem_singleton.mp h) (by decide))]
    simp only [Nat.add_zero, Nat.zero_add]
    rfl

/-! ## The scatter indices `[64, 1, 2]`: the batch number beside the wrapped masked position -/

/-- A natural number below 64, as a 32-bit word read signed, is itself. -/
theorem toInt_ofNat_small (n : Nat) (h : n < 64) : (BitVec.ofNat 32 n).toInt = (n : Int) := by
  have h1 : (BitVec.ofNat 32 n).toNat = n := by rw [BitVec.toNat_ofNat]; omega
  rw [BitVec.toInt_eq_toNat_of_lt (by rw [h1]; omega), h1]

/-- The wrapped batch iota `[64, 1]` at `(b, 0)`: the word of `b`. -/
theorem v19_at (b : Fin 64) : val_main_v19 (F := Ideal) (ix2 b (0 : Fin 1)) = BitVec.ofNat 32 b.val := by
  rw [val_main_v19_apply, val_main_v16_apply, val_main_v18_apply, val_main_v15_apply, val_main_c_2_apply,
    val_main_v17_apply, val_main_c_3_apply, val_main_v14_apply]
  have : idx_main_v14 (ix2 b (0 : Fin 1)) = ix1 b := by
    funext a; match a with | ⟨0, _⟩ => rfl
  rw [this, val_main_v13_apply]
  exact wrap_of_nonneg _ _ (by rw [toInt_ofNat_small _ b.isLt]; exact Int.natCast_nonneg _)

/-- The wrapped masked position `[64, 1]` at `(b, 0)`: the masked position's word when that is not negative. -/
theorem v24_at (b : Fin 64) (h : 0 ≤ (mp (ix2 b (0 : Fin 1))).toInt) :
    val_main_v24 (F := Ideal) mp (ix2 b (0 : Fin 1)) = mp (ix2 b (0 : Fin 1)) := by
  rw [val_main_v24_apply, val_main_v21_apply, val_main_v23_apply, val_main_v20_apply, val_main_c_4_apply,
    val_main_v22_apply, val_main_c_5_apply]
  exact wrap_of_nonneg _ _ h

/-- The scatter indices at `(b, 0, 0)`, the first piece of the concatenation: the word of `b`. -/
theorem v27_at_0 (b : Fin 64) :
    val_main_v27 (F := Ideal) mp (ix3 b (0 : Fin 1) (0 : Fin 2)) = BitVec.ofNat 32 b.val := by
  unfold val_main_v27
  rw [concatenate_pair_apply_left (t := S64x1x2) (s₁ := S64x1x1) (s₂ := S64x1x1) (2 : Fin 3) _ _ _ (ix3 b (0 : Fin 1) (0 : Fin 2))
    (rfl : S64x1x1.rank = S64x1x2.rank) (ix3 b (0 : Fin 1) (0 : Fin 1))
    (fun c => by match c with | ⟨0, _⟩ => rfl | ⟨1, _⟩ => rfl | ⟨2, _⟩ => rfl)]
  rw [val_main_v25_apply]
  have : idx_main_v25 (ix3 b (0 : Fin 1) (0 : Fin 1)) = ix2 b (0 : Fin 1) := by
    funext a; match a with | ⟨0, _⟩ => rfl | ⟨1, _⟩ => rfl
  rw [this]; exact v19_at b

/-- The scatter indices at `(b, 0, 1)`, the second piece of the concatenation: the masked position's word when that
    is not negative. -/
theorem v27_at_1 (b : Fin 64) (h : 0 ≤ (mp (ix2 b (0 : Fin 1))).toInt) :
    val_main_v27 (F := Ideal) mp (ix3 b (0 : Fin 1) (1 : Fin 2)) = mp (ix2 b (0 : Fin 1)) := by
  unfold val_main_v27
  rw [concatenate_pair_apply_right (t := S64x1x2) (s₁ := S64x1x1) (s₂ := S64x1x1) (2 : Fin 3) _ _ _ (ix3 b (0 : Fin 1) (1 : Fin 2))
    (rfl : S64x1x1.rank = S64x1x2.rank) (rfl : S64x1x1.rank = S64x1x2.rank) (ix3 b (0 : Fin 1) (0 : Fin 1))
    (fun c hc => by
      match c with
      | ⟨0, _⟩ => rfl
      | ⟨1, _⟩ => rfl
      | ⟨2, _⟩ => exact absurd rfl hc)
    rfl]
  rw [val_main_v26_apply]
  have : idx_main_v26 (ix3 b (0 : Fin 1) (0 : Fin 1)) = ix2 b (0 : Fin 1) := by
    funext a; match a with | ⟨0, _⟩ => rfl | ⟨1, _⟩ => rfl
  rw [this]; exact v24_at mp b h

/-! ## The scatter: where an update lands, and the scattered array at coordinates -/

/-- An update whose start plus window coordinate is, on every axis, the coordinate of `i'` lands at `i'`. -/
theorem resultIdx?_eq_some {s si u : Shape} (d : ScatterDims s si u) {w : Nat} (j : u.Idx) (idx : IVec si w)
    (i' : s.Idx) (h : ∀ a, d.start j idx a + (d.window j a : Int) = ((i' a).val : Int)) :
    d.resultIdx? j idx = some i' := by
  unfold ScatterDims.resultIdx?
  rw [dif_pos (fun a => by rw [h a]; have := (i' a).isLt; omega)]
  congr 1
  funext a
  refine Fin.ext ?_
  show (d.start j idx a + (d.window j a : Int)).toNat = (i' a).val
  rw [h a]; exact Int.toNat_natCast _

/-- The masked position of batch `b` as a sequence position, under the range hypothesis. -/
def posOf (hp : Cert.Spec.PosInRange mp) (b : Fin 64) : Fin 2048 :=
  ⟨(mp (ix2 b (0 : Fin 1))).toInt.toNat, by have := hp (ix2 b (0 : Fin 1)); omega⟩

theorem posOf_val (hp : Cert.Spec.PosInRange mp) (b : Fin 64) :
    ((posOf mp hp b).val : Int) = (mp (ix2 b (0 : Fin 1))).toInt := by
  have := hp (ix2 b (0 : Fin 1))
  show (((mp (ix2 b (0 : Fin 1))).toInt.toNat : Nat) : Int) = _
  omega

/-- WHERE AN UPDATE LANDS: update `(b', 0, q')` lands at `(b', mask_positions[b'], q')`. -/
theorem lands (hp : Cert.Spec.PosInRange mp) (b' : Fin 64) (q' : Fin 512) :
    scatter_S64x2048x512_S64x1x2_S64x1x512_2_01_01_2.resultIdx? (ix3 b' (0 : Fin 1) q') (val_main_v27 (F := Ideal) mp)
      = some (ix3 b' (posOf mp hp b') q') := by
  refine resultIdx?_eq_some _ _ _ _ (fun a => ?_)
  match a with
  | ⟨0, _⟩ =>
    have hw : scatter_S64x2048x512_S64x1x2_S64x1x512_2_01_01_2.window (ix3 b' (0 : Fin 1) q') 0 = 0 := rfl
    have hs : scatter_S64x2048x512_S64x1x2_S64x1x512_2_01_01_2.start (ix3 b' (0 : Fin 1) q') (val_main_v27 (F := Ideal) mp) 0
        = (val_main_v27 (F := Ideal) mp (ix3 b' (0 : Fin 1) (0 : Fin 2))).toInt := by
      unfold ScatterDims.start
      rw [dif_pos (show (0 : Fin 3) ∈ scatter_S64x2048x512_S64x1x2_S64x1x512_2_01_01_2.scatterDimsToOperandDims from
        List.mem_cons_self)]
      congr 2
      funext c; refine Fin.ext ?_
      match c with
      | ⟨0, _⟩ => rfl
      | ⟨1, _⟩ => rfl
      | ⟨2, _⟩ => rfl
    show scatter_S64x2048x512_S64x1x2_S64x1x512_2_01_01_2.start (ix3 b' (0 : Fin 1) q') (val_main_v27 (F := Ideal) mp) 0
      + ((scatter_S64x2048x512_S64x1x2_S64x1x512_2_01_01_2.window (ix3 b' (0 : Fin 1) q') 0 : Nat) : Int) = (b'.val : Int)
    rw [hw, hs, v27_at_0, toInt_ofNat_small _ b'.isLt]; simp
  | ⟨1, _⟩ =>
    have hw : scatter_S64x2048x512_S64x1x2_S64x1x512_2_01_01_2.window (ix3 b' (0 : Fin 1) q') 1 = 0 := rfl
    have hs : scatter_S64x2048x512_S64x1x2_S64x1x512_2_01_01_2.start (ix3 b' (0 : Fin 1) q') (val_main_v27 (F := Ideal) mp) 1
        = (val_main_v27 (F := Ideal) mp (ix3 b' (0 : Fin 1) (1 : Fin 2))).toInt := by
      unfold ScatterDims.start
      rw [dif_pos (show (1 : Fin 3) ∈ scatter_S64x2048x512_S64x1x2_S64x1x512_2_01_01_2.scatterDimsToOperandDims from
        List.mem_cons_of_mem _ List.mem_cons_self)]
      congr 2
      funext c; refine Fin.ext ?_
      match c with
      | ⟨0, _⟩ => rfl
      | ⟨1, _⟩ => rfl
      | ⟨2, _⟩ => rfl
    show scatter_S64x2048x512_S64x1x2_S64x1x512_2_01_01_2.start (ix3 b' (0 : Fin 1) q') (val_main_v27 (F := Ideal) mp) 1
      + ((scatter_S64x2048x512_S64x1x2_S64x1x512_2_01_01_2.window (ix3 b' (0 : Fin 1) q') 1 : Nat) : Int)
        = ((posOf mp hp b').val : Int)
    rw [hw, hs, v27_at_1 mp b' (hp (ix2 b' (0 : Fin 1))).1, posOf_val]; simp
  | ⟨2, _⟩ =>
    have hw : scatter_S64x2048x512_S64x1x2_S64x1x512_2_01_01_2.window (ix3 b' (0 : Fin 1) q') 2 = q'.val := rfl
    have hs : scatter_S64x2048x512_S64x1x2_S64x1x512_2_01_01_2.start (ix3 b' (0 : Fin 1) q') (val_main_v27 (F := Ideal) mp) 2
        = 0 := by
      unfold ScatterDims.start
      rw [dif_neg (show ¬ (2 : Fin 3) ∈ scatter_S64x2048x512_S64x1x2_S64x1x512_2_01_01_2.scatterDimsToOperandDims from by
        show ¬ (2 : Fin 3) ∈ [(0 : Fin 3), 1]
        decide)]
    show scatter_S64x2048x512_S64x1x2_S64x1x512_2_01_01_2.start (ix3 b' (0 : Fin 1) q') (val_main_v27 (F := Ideal) mp) 2
      + ((scatter_S64x2048x512_S64x1x2_S64x1x512_2_01_01_2.window (ix3 b' (0 : Fin 1) q') 2 : Nat) : Int) = (q'.val : Int)
    rw [hw, hs]; simp

/-- The updates `[64, 1, 512]` are zero everywhere. -/
theorem v28_at (j : S64x1x512.Idx) : val_main_v28 (F := Ideal) j = (0 : EReal) := by
  rw [val_main_v28_apply, val_main_cst_apply]
  exact Ideal.ofBits_zero_f32

/-- The scatter's operand at `(b, p, q)`: the table's row for the category times the padding factor — zero at the
    padding category, else the row's element. -/
theorem v12_at (hc : Cert.Spec.CatInRange cat) (b : Fin 64) (p : Fin 2048) (q : Fin 512) :
    val_main_v12 (F := Ideal) cat tbl (ix3 b p q)
      = if cat (ix2 b p) = 0#32 then (0 : EReal) else tbl (ix2 (Cert.Spec.rowOf (cat (ix2 b p))) q) := by
  rw [val_main_v12_apply, v6_at, v5_at cat b p (hc (ix2 b p)).1, v11_at]
  show (tbl (ix2 (Cert.Spec.rowOf (cat (ix2 b p))) q) : EReal) * (if cat (ix2 b p) = 0#32 then (0 : EReal) else 1) = _
  split
  · exact mul_zero _
  · exact mul_one _

/-- THE SCATTERED ARRAY AT `(b, p, q)` is the specification's embedding term: at the batch's masked position exactly one
    update lands, `(b, 0, q)`, and writes its zero; anywhere else none lands and the operand's element stays. -/
theorem v29_at (hc : Cert.Spec.CatInRange cat) (hp : Cert.Spec.PosInRange mp) (b : Fin 64) (p : Fin 2048) (q : Fin 512) :
    val_main_v29 (F := Ideal) cat mp tbl (ix3 b p q) = Cert.Spec.embedding cat mp tbl b p q := by
  unfold val_main_v29 Cert.Spec.embedding
  by_cases hm : (mp (ix2 b (0 : Fin 1))).toInt = (p.val : Int)
  · rw [if_pos hm]
    have hpos : posOf mp hp b = p := Fin.ext (by have := posOf_val mp hp b; omega)
    rw [Host.scatter_apply_of_unique _ _ _ _ _ (ix3 b p q) (ix3 b (0 : Fin 1) q) (by rw [lands mp hp, hpos])
      (fun j hj => by
        obtain ⟨b', z, q', rfl⟩ : ∃ b' z q', j = ix3 b' z q' := ⟨j 0, j 1, j 2, eq_ix3 j⟩
        obtain rfl : z = 0 := Subsingleton.elim _ _
        rw [lands mp hp] at hj
        have e := Option.some.inj hj
        have e0 : b' = b := congrFun e 0
        have e2 : q' = q := congrFun e 2
        subst e0; subst e2; rfl)]
    exact v28_at _
  · rw [if_neg hm, Host.scatter_apply_of_miss _ _ _ _ _ (ix3 b p q) (fun j hj => by
        obtain ⟨b', z, q', rfl⟩ : ∃ b' z q', j = ix3 b' z q' := ⟨j 0, j 1, j 2, eq_ix3 j⟩
        obtain rfl : z = 0 := Subsingleton.elim _ _
        rw [lands mp hp] at hj
        have e := Option.some.inj hj
        have e0 : b' = b := congrFun e 0
        have e1 : posOf mp hp b' = p := congrFun e 1
        subst e0
        exact hm (by rw [← posOf_val mp hp b', e1]))]
    exact v12_at cat tbl hc b p q

end Stages

/-! ## The reference is the specification -/

/-- The reference's result is the specification's, element by element: the inputs plus the scattered array. -/
theorem ref_eq_spec (inp : FVec Ideal Cert.ReferenceIdeal.S64x2048x512 .f32) (cat : IVec Cert.ReferenceIdeal.S64x2048 32)
    (mp : IVec Cert.ReferenceIdeal.S64x1 32) (tbl : FVec Ideal Cert.ReferenceIdeal.S5000x512 .f32)
    (hc : Cert.Spec.CatInRange cat) (hp : Cert.Spec.PosInRange mp) :
    Cert.ReferenceIdeal.Read.val_main_v30 (F := Ideal) inp cat mp tbl = Cert.Spec.result inp cat mp tbl := by
  funext i
  obtain ⟨b, p, q, rfl⟩ : ∃ b p q, i = ix3 b p q := ⟨i 0, i 1, i 2, eq_ix3 i⟩
  rw [val_main_v30_apply, v29_at cat mp tbl hc hp b p q]
  rfl

end Cert.RefValue

end
-- ==== Proof.PreRanges.lean ====
/-
  The precondition, decoded. The precondition is a conjunction of six `i1` words, each the `and`-reduction over every
  element of an array of comparison words: two say the float arrays are finite, and four say that every category word,
  read signed, satisfies `0 ≤ c` and `c < 5000`, and that every masked position, read signed, satisfies `0 ≤ p` and
  `p < 2048`. When the whole conjunction is the word 1, each conjunct is 1; an `and`-reduction that is 1 met a 1 at every
  element; and a signed comparison word that is 1 is the order relation between the signed values of the words it
  compares. Only the four integer conjuncts are read here: they give the two range statements of the specification.
-/
import proofs.«401667_j9019431321845_3_alg».proof.Proof.Gen.Pre_finite_inputs
import proofs.«401667_j9019431321845_3_alg».proof.Proof.Spec
import Idealize.ShloMosaic.Lib.ReduceAll
import Idealize.ShloMosaic.Lib.StableHlo.Predicate
import Idealize.ShloMosaic.Lib.ValueIdx

namespace Cert.PreRanges

open Idealize.ShloMosaic Idealize.ShloMosaic.ValueIdx Cert.Pre_finite_inputs

/-- The rank-0 shape has exactly one index: two indices are functions out of the empty set of axes. -/
instance scalarIdx_subsingleton : Subsingleton S_.Idx := ⟨fun _ _ => funext fun d => d.elim0⟩

/-! ## Words -/

theorem toInt_lit_zero : (0#32 : BitVec 32).toInt = 0 := by decide
theorem toInt_lit_5000 : (5000#32 : BitVec 32).toInt = 5000 := by decide
theorem toInt_lit_2048 : (2048#32 : BitVec 32).toInt = 2048 := by decide

/-- `x ≥ 0` as a signed comparison word: the signed value of `x` is nonnegative. -/
theorem nonneg_of_sge_zero {x : BitVec 32} (h : IntOp.cmpi .sge x 0#32 = 1#1) : 0 ≤ x.toInt := by
  have h' := IntOp.cmpi_sge.1 h
  rwa [toInt_lit_zero] at h'

/-- `x < 5000` as a signed comparison word. -/
theorem lt_5000_of_slt {x : BitVec 32} (h : IntOp.cmpi .slt x 5000#32 = 1#1) : x.toInt < 5000 := by
  have h' := IntOp.cmpi_slt.1 h
  rwa [toInt_lit_5000] at h'

/-- `x < 2048` as a signed comparison word. -/
theorem lt_2048_of_slt {x : BitVec 32} (h : IntOp.cmpi .slt x 2048#32 = 1#1) : x.toInt < 2048 := by
  have h' := IntOp.cmpi_slt.1 h
  rwa [toInt_lit_2048] at h'

/-! ## One conjunct: `all (x ⋈ c)` for a scalar constant `c` -/

/-- The array `x` is compared, element by element, with the scalar `c` broadcast to its shape, and the comparison words
    are reduced by `and` over all axes. If the result is 1, the comparison of `x i` with `c` is 1 at every index `i`: the
    broadcast of a constant reads `c` everywhere, and an `and`-reduction that is 1 met only 1s. -/
theorem all_cmp_const {s : Shape} {axes : List (Fin s.rank)} (p : CmpIPredicate) (x : IVec s 32) (c : BitVec 32)
    (hb : S_.BroadcastsInDim s (![] : Fin 0 → Fin s.rank)) (hr : s.ReducesTo axes S_) (hu : 0 < S_.numel)
    (init : IVec S_ 1)
    (e : Host.reduce IntOp.andi (cmpi p x (broadcastInDim s ![] hb (constantI S_ 32 c))) init hr hu ix0 = 1#1)
    (i : s.Idx) : IntOp.cmpi p (x i) c = 1#1 :=
  Host.reduce_andi_all _ init hr hu ix0 e i

/-! ## The conjunction -/

section
variable {F : FTy → Type} [FloatOps F] (a0 : FVec F S64x2048x512 .f32) (a1 : IVec S64x2048 32) (a2 : IVec S64x1 32)
  (a3 : FVec F S5000x512 .f32)

/-- The four integer conjuncts of the precondition, element by element, as comparison words: the result word is the
    `and` of the six reductions, so it is 1 only if each reduction is 1, and each reduction is read by `all_cmp_const`. -/
theorem int_conjuncts (h : fn (F := F) a0 a1 a2 a3 = fun _ => 1#1) :
    (∀ i, IntOp.cmpi .sge (a1 i) 0#32 = 1#1) ∧ (∀ i, IntOp.cmpi .slt (a1 i) 5000#32 = 1#1) ∧
    (∀ i, IntOp.cmpi .sge (a2 i) 0#32 = 1#1) ∧ (∀ i, IntOp.cmpi .slt (a2 i) 2048#32 = 1#1) := by
  have h0 := congrFun h ix0
  simp only [fn, fn_part1, andi, IntOp.andi_eq_one] at h0
  obtain ⟨⟨⟨⟨_, hc0⟩, hc1⟩, hp0⟩, hp1⟩ := h0
  exact ⟨all_cmp_const _ _ _ _ _ _ _ hc0, all_cmp_const _ _ _ _ _ _ _ hc1,
    all_cmp_const _ _ _ _ _ _ _ hp0, all_cmp_const _ _ _ _ _ _ _ hp1⟩

/-- Under the precondition every category word, read signed, lies in `[0, 5000)`. -/
theorem cat_in_range (h : fn (F := F) a0 a1 a2 a3 = fun _ => 1#1) : Cert.Spec.CatInRange a1 := by
  obtain ⟨hc0, hc1, _, _⟩ := int_conjuncts a0 a1 a2 a3 h
  exact fun i => ⟨nonneg_of_sge_zero (hc0 i), lt_5000_of_slt (hc1 i)⟩

/-- Under the precondition every masked position, read signed, lies in `[0, 2048)`. -/
theorem pos_in_range (h : fn (F := F) a0 a1 a2 a3 = fun _ => 1#1) : Cert.Spec.PosInRange a2 := by
  obtain ⟨_, _, hp0, hp1⟩ := int_conjuncts a0 a1 a2 a3 h
  exact fun i => ⟨nonneg_of_sge_zero (hp0 i), lt_2048_of_slt (hp1 i)⟩

end

end Cert.PreRanges
-- ==== Proof.lean ====
/-
  The category adder: an embedding lookup added to the inputs, against its jnp reference.

  Both programs compute, for a batch `b`, a sequence position `p` and a feature `q`,
      inputs[b, p, q] + e[b, p, q],
  where `e[b, p, q]` is the embedding-table row of `categories[b, p]`, except that it is 0 where the category is the
  padding category 0 and 0 at the batch's masked position `mask_positions[b]` (Spec.lean).

  The kernel looks the row up by a one-hot product: it compares a column-index table with the category, and multiplies
  the resulting 0/1 matrix with the table; over the extended reals the sum over the 5000 rows has one nonzero term, the
  category's row (0 · x = 0 and 1 · x = x for every extended real, so no finiteness is used). It then multiplies by the
  0/1 padding factor and the 0/1 factor "this is not the masked position". The reference gathers the row, multiplies by
  the padding factor, and overwrites the masked position's row with zeros by a scatter. The two agree where the integer
  inputs index what they index: category words in `[0, 5000)` (the kernel clips a word outside it where the reference's
  gather wraps a negative one) and masked positions in `[0, 2048)` (the reference's scatter wraps a negative one, which
  the kernel's comparison never meets). The precondition states those ranges, and they are read out of it in
  PreRanges.lean.

  The kernel side: the column-index table lives in a scratch buffer that is rebuilt on each batch's first sequence tile
  and carried over the other tiles; by induction over the grid it is the same table at every point (KernelCarried.lean),
  so each point writes back the specification along its block's rows, and the blocks tile the result array
  (KernelValue.lean). The reference side: its host operations read one at a time (RefValue.lean).
  The word-level kernel needs only its frame; its idealization rewrote no operation.
-/
import proofs.«401667_j9019431321845_3_alg».proof.Defs
import proofs.«401667_j9019431321845_3_alg».proof.Proof.Gen.Kernel
import proofs.«401667_j9019431321845_3_alg».proof.Proof.Gen.Kernel.Skeleton
import proofs.«401667_j9019431321845_3_alg».proof.Proof.Gen.Kernel.Launch
import proofs.«401667_j9019431321845_3_alg».proof.Proof.Gen.Kernel.Points
import proofs.«401667_j9019431321845_3_alg».proof.Proof.Gen.Kernel.Frame
import proofs.«401667_j9019431321845_3_alg».proof.Proof.Gen.KernelIdeal
import proofs.«401667_j9019431321845_3_alg».proof.Proof.Gen.KernelIdeal.Skeleton
import proofs.«401667_j9019431321845_3_alg».proof.Proof.Gen.KernelIdeal.Launch
import proofs.«401667_j9019431321845_3_alg».proof.Proof.Gen.KernelIdeal.Points
import proofs.«401667_j9019431321845_3_alg».proof.Proof.Gen.KernelIdeal.Frame
import proofs.«401667_j9019431321845_3_alg».proof.Proof.Gen.ReferenceIdeal
import proofs.«401667_j9019431321845_3_alg».proof.Proof.Gen.ReferenceIdeal.Run
import proofs.«401667_j9019431321845_3_alg».proof.Proof.Gen.ReferenceIdeal.Read
import proofs.«401667_j9019431321845_3_alg».proof.Proof.Gen.Pre_finite_inputs
import proofs.«401667_j9019431321845_3_alg».proof.Proof.KernelValue
import proofs.«401667_j9019431321845_3_alg».proof.Proof.RefValue
import proofs.«401667_j9019431321845_3_alg».proof.Proof.PreRanges
import Idealize.ShloMosaic.Adequacy
import Idealize.ShloMosaic.Init

noncomputable section

namespace Cert.Proof

open Idealize.ShloMosaic Idealize.SL.Sem

/-- The word-level kernel runs and leaves its arguments unchanged. No index map reads the prefetched table, so the
    pipeline asks nothing of the table's contents. -/
theorem frame_kernel : Cert.frame_Kernel := fun m ρ _ => Cert.Kernel.Gen.frame m ρ trivial

/-- The same of the idealized kernel. -/
theorem frame_kernelIdeal : Cert.frame_KernelIdeal := fun m ρ _ => Cert.KernelIdeal.Gen.frame m ρ trivial

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, the idealized kernel's result array and the reference's result both end
    at the specification of the arguments: the integer ranges come from the precondition. -/
theorem algebraic : Cert.algebraic_KernelIdeal_ReferenceIdeal := by
  intro m ρ m' ρ' hpre hagree
  have hc : ∀ c, Cert.KernelIdeal.Result.CatOk m c := fun c => Cert.PreRanges.cat_in_range _ _ _ _ (hpre c)
  have hp : ∀ c : Dev Cert.KernelIdeal.nD, Cert.Spec.PosInRange
      (m ((c.tc : Thread Cert.KernelIdeal.nD Cert.KernelIdeal.τ).loc Cert.KernelIdeal.main_arg2)) :=
    fun c => Cert.PreRanges.pos_in_range _ _ _ _ (hpre c)
  refine ⟨fun c => Cert.KernelIdeal.Result.spec m c, Cert.KernelIdeal.Result.run m ρ trivial hc, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.Read.val_main_v30_eq _ _ _ _)).trans ?_
  rw [(hagree c).1, (hagree c).2.1, (hagree c).2.2.1, (hagree c).2.2.2]
  exact Cert.RefValue.ref_eq_spec _ _ _ _ (hc c) (hp c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
